-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v14 : FVec F S8192 .f32) (main_v15 : FVec F S8192 .f32) : IVec S_ 1 :=
  let main_v16 : IVec S8192 1 := cmpf .ogt main_v14 main_v15
  let main_c_6 : IVec S_ 1 := constantI S_ 1 1#1
  let main_v17 : IVec S_ 1 := (fun x v => Host.reduce IntOp.andi x v reducesTo_S8192_S_d0 h_S_) main_v16 main_c_6
  let main_v18 : IVec S_ 1 := andi main_v13 main_v17
  main_v18

def fn {F : FTy → Type} [FloatOps F] (main_arg0 : FVec F S8192x128 .f32) (main_arg1 : FVec F S8192x8192 .f32) (main_arg2 : FVec F S128x64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_cst_4 : FVec F S_ .f32 := constant S_ .f32 0x00000000#32
  let main_v14 : FVec F S8192 .f32 := (fun x v => Host.reduceAdd x v reducesTo_S8192x8192_S8192_d1 h_S_) main_arg1 main_cst_4
  let main_cst_5 : FVec F S_ .f32 := constant S_ .f32 0x00000000#32
  let main_v15 : FVec F S8192 .f32 := broadcastInDim S8192 ![] bcast_S_S8192 main_cst_5
  fn_part1 (F := F) main_v13 main_v14 main_v15
-- ==== Kernel.lean ====
abbrev S8192x128 : Shape := ⟨2, ![8192, 128]⟩
abbrev S8192x8192 : Shape := ⟨2, ![8192, 8192]⟩
abbrev S128x64 : Shape := ⟨2, ![128, 64]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S_ : Shape := ⟨0, ![]⟩
abbrev S8192x64 : Shape := ⟨2, ![8192, 64]⟩
abbrev S2048x128 : Shape := ⟨2, ![2048, 128]⟩
abbrev S2048x1 : Shape := ⟨2, ![2048, 1]⟩
abbrev S1024x64 : Shape := ⟨2, ![1024, 64]⟩
abbrev S1024x128 : Shape := ⟨2, ![1024, 128]⟩

abbrev nBuf : Space → Nat
  | .hbm => 9
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S8192x1, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S1024x2048, .f32⟩
  | .local _ .vmem, ⟨5, _⟩ => ⟨S1024x2048, .f32⟩
  | .local _ .vmem, ⟨6, _⟩ => ⟨S2048x128, .f32⟩
  | .local _ .vmem, ⟨7, _⟩ => ⟨S2048x128, .f32⟩
  | .local _ .vmem, ⟨8, _⟩ => ⟨S2048x1, .f32⟩
  | .local _ .vmem, ⟨9, _⟩ => ⟨S2048x1, .f32⟩
  | .local _ .vmem, ⟨10, _⟩ => ⟨S1024x1, .f32⟩
  | .local _ .vmem, ⟨11, _⟩ => ⟨S1024x1, .f32⟩
  | .local _ .vmem, ⟨12, _⟩ => ⟨S128x64, .f32⟩
  | .local _ .vmem, ⟨13, _⟩ => ⟨S1024x64, .f32⟩
  | .local _ .vmem, ⟨14, _⟩ => ⟨S1024x64, .f32⟩
  | .local _ .vmem, ⟨15, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  bcast_S_S8192x1 : S_.BroadcastsInDim S8192x1 (![] : Fin 0 → Fin S8192x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bitsLt_bf16_f32 : FTy.bits .bf16 < FTy.bits .f32
  broadcasts_S1024x1_S1024x128 : S1024x1.Broadcasts S1024x128
  inb_S128x64_S128x64_0_0 : ∀ a, (![0, 0] : Fin 2 → Nat) a + S128x64.size a ≤ S128x64.size a
  h_S128x64 : 0 < S128x64.numel
  inb_S1024x64_S1024x64_0_0 : ∀ a, (![0, 0] : Fin 2 → Nat) a + S1024x64.size a ≤ S1024x64.size a
  h_S1024x64 : 0 < S1024x64.numel
  dot_S1024x2048_S2048x128_S1024x128_1_0_0_1_n_n_wf : DotDims.WF S1024x2048 S2048x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x64 : Shape := ⟨2, ![8192, 64]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x128, .f32⟩
  | .hbm, ⟨16, _⟩ => ⟨S8192x64, .f32⟩
  | .hbm, ⟨17, _⟩ => ⟨S_, .f32⟩
  | .hbm, ⟨18, _⟩ => ⟨S8192x64, .f32⟩
  | .hbm, ⟨19, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x64 : S_.BroadcastsInDim S8192x64 (![] : Fin 0 → Fin S8192x64.rank)
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.K.Data.lean ====
/-
  The two kernel regions' data, at the buffer contents `V` each region is entered from.

  The grid of both regions is 8 row tiles by 4 column tiles, walked row-major: point `t` is
  row tile `t / 4`, column tile `k = t % 4`.

  Region 0 (row sums). At point `t` the body adds to its 1024-row output block the lane sums of the
  1024 x 2048 block of the matrix, after clearing the block when `k = 0`; the block is written back
  when `k = 3`. `degAt n` is what the output's staging buffer holds after point `n`.

  Region 1 (the normalised product). At point `t` the body adds to a 1024 x 128 scratch accumulator
  the product of the matrix block with the feature block scaled row by row by the column-side
  factors, after clearing it when `k = 0`; when `k = 3` it scales the accumulator row by row by the
  row-side factors, multiplies by the weights, clamps at zero and stores the 1024 x 64 output block,
  which is then written back. `accAt n` is the scratch after point `n`, `outAt n` the block stored at
  a point with `k = 3`. The column-side and row-side factors are two windows on ONE array, read
  only: the array is held at its two half shares.
-/
import proofs.«164056_j47261820125198_1_alg».proof.Proof.Gen.Kernel.Launch
import proofs.«164056_j47261820125198_1_alg».proof.Proof.Gen.Kernel.Skeleton
import proofs.«164056_j47261820125198_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The bodies' branch conditions, decided over the grid -/

/-- Region 0 clears its output block: the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- Region 1 clears its accumulator: the column tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- Region 1 finishes its output block: the column tile is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## What the staging buffers and the scratch hold after each point -/

/-- Region 0's output block after point `n`: the lane sums of the matrix block added to zero at a first
    column tile, to what the point before left otherwise. -/
def degAt (c : Dev nD) : (n : ℕ) → n < cfg0.N → Vec F S1024x1 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (degAt c n (Nat.lt_of_succ_lt hn)) (iblk0 V c 0 ⟨n + 1, hn⟩)

theorem degAt_first (c : Dev nD) (t : Fin cfg0.N) (h0 : t.val % 4 = 0) :
    degAt V c t.val t.isLt = k0_pay2 (k0_pay1 (F := F)) (iblk0 V c 0 t) := by
  obtain ⟨n, hn⟩ := t
  cases n with
  | zero => rfl
  | succ n => exact if_pos h0

theorem degAt_next (c : Dev nD) (t : Fin cfg0.N) (h0 : ¬t.val % 4 = 0) :
    degAt V c t.val t.isLt = k0_pay2 (degAt V c (t.val - 1) (Nat.lt_of_le_of_lt (Nat.sub_le _ _) t.isLt)) (iblk0 V c 0 t) := by
  obtain ⟨n, hn⟩ := t
  cases n with
  | zero => exact absurd (Nat.zero_mod _) h0
  | succ n => exact if_neg h0

/-- Region 1's scratch accumulator after point `n`. -/
def accAt (c : Dev nD) : (n : ℕ) → n < cfg1.N → Vec F S1024x128 .f32
  | 0, hn => k1_pay2 (iblk1 V c 1 ⟨0, hn⟩) (iblk1 V c 2 ⟨0, hn⟩) (iblk1 V c 0 ⟨0, hn⟩) (k1_pay1 (F := F))
  | n + 1, hn =>
    if (n + 1) % 4 = 0 then k1_pay2 (iblk1 V c 1 ⟨n + 1, hn⟩) (iblk1 V c 2 ⟨n + 1, hn⟩) (iblk1 V c 0 ⟨n + 1, hn⟩) (k1_pay1 (F := F))
    else k1_pay2 (iblk1 V c 1 ⟨n + 1, hn⟩) (iblk1 V c 2 ⟨n + 1, hn⟩) (iblk1 V c 0 ⟨n + 1, hn⟩) (accAt c n (Nat.lt_of_succ_lt hn))

theorem accAt_first (c : Dev nD) (t : Fin cfg1.N) (h0 : t.val % 4 = 0) :
    accAt V c t.val t.isLt = k1_pay2 (iblk1 V c 1 t) (iblk1 V c 2 t) (iblk1 V c 0 t) (k1_pay1 (F := F)) := by
  obtain ⟨n, hn⟩ := t
  cases n with
  | zero => rfl
  | succ n => exact if_pos h0

theorem accAt_next (c : Dev nD) (t : Fin cfg1.N) (h0 : ¬t.val % 4 = 0) :
    accAt V c t.val t.isLt = k1_pay2 (iblk1 V c 1 t) (iblk1 V c 2 t) (iblk1 V c 0 t)
      (accAt V c (t.val - 1) (Nat.lt_of_le_of_lt (Nat.sub_le _ _) t.isLt)) := by
  obtain ⟨n, hn⟩ := t
  cases n with
  | zero => exact absurd (Nat.zero_mod _) h0
  | succ n => exact if_neg h0

/-- Region 1's output block as stored at point `n` (a last column tile): the accumulator scaled by the
    row-side factors, times the weights, clamped at zero. At the other points nothing consults it. -/
def outAt (c : Dev nD) (n : ℕ) (hn : n < cfg1.N) : Vec F S1024x64 .f32 :=
  k1_pay3 (accAt V c n hn) (iblk1 V c 3 ⟨n, hn⟩) (iblk1 V c 4 ⟨n, hn⟩)

/-! ## Region 1's invariant: the scratch carried between points -/

/-- The scratch operand, a whole scoped buffer of the kernel's own. -/
abbrev scM1 : Memref sig .tc .vmem S1024x128 .f32 := Memref.whole cc1_scratch0

/-- The scoped buffers region 1 does not stage, the scratch apart, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Before the first point everything scoped is at some contents (the library's `ΦA`); before point `n + 1`
    the scratch holds what point `n` left. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt V c n hn) ∗ (∃ r, prngReg c r))

/-! ## The proof data -/

/-- Region 0 on core `c`: the arrays as the region finds them; the matrix block left in place, the output
    block at `degAt`; nothing scoped is named; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => degAt V c t.val t.isLt
  Φ _ := Pipeline.ΦA spec0 c
  q _ := fullShare
  owed _ := 0

/-- Region 1 on core `c`: the arrays as the region finds them; every input block left in place, the output
    block at `outAt`; the scratch carried (`PhiS1`); nothing owed; the factors' array at its two half
    shares, one per window on it, the other inputs at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = degAt V c t.val t.isLt := by dsimp only [dat0]

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]

end Cert.Kernel.Gcn

end
-- ==== Proof.K.Bounds.lean ====
/-
  The buffer contents between @main's items, a fold from the launch memory `m`:
  region 0 is entered from the launch memory and changes only the row-sum array, to `deg`;
  the host stretch then takes its square root and reciprocal; region 1 is entered from that and
  changes only the result array, to `res`.
-/
import proofs.«164056_j47261820125198_1_alg».proof.Proof.K.Data

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- The same read at a TensorCore reference: what region 0 is entered from. -/
abbrev V0 (c : Dev nD) (b : Ref sig .tc) : Buf (Elt F) ((c : Thread nD τ).loc b) := W0 m c b
/-- The row-sum array as region 0's write-backs leave it. -/
def deg (c : Dev nD) : Buf (Elt F) ((c : Thread nD τ).loc main_v0) := (dat0 (V0 m) c).arrAt 1 cfg0.N
/-- After region 0: only the row-sum array has changed. -/
abbrev W1 (c : Dev nD) : Valuation τ sig (Elt F) := Function.update (W0 m c) main_v0 (deg m c)
/-- After the host stretch (square root, the constant one, its broadcast, the quotient). -/
abbrev W2 (c : Dev nD) : Valuation τ sig (Elt F) := StableHlo.after hostOps1 (W1 m c)
/-- The same read at a TensorCore reference: what region 1 is entered from. -/
abbrev V2 (c : Dev nD) (b : Ref sig .tc) : Buf (Elt F) ((c : Thread nD τ).loc b) := W2 m c b
/-- The result array as region 1's write-backs leave it. -/
def res (c : Dev nD) : Buf (Elt F) ((c : Thread nD τ).loc main_v4) := (dat1 (V2 m) c).arrAt 5 cfg1.N
/-- After region 1: only the result array has changed. -/
abbrev W3 (c : Dev nD) : Valuation τ sig (Elt F) := Function.update (W2 m c) main_v4 (res m c)

end Cert.Kernel.Gcn

end
-- ==== Proof.K.DegreeBody.lean ====
/-
  Region 0's body at every grid point: handed the matrix block and its own output block, it leaves
  the output block at `degAt` — cleared first when the column tile is the first, otherwise added to
  what the point before left, which the pipeline has not written back in between.
-/
import proofs.«164056_j47261820125198_1_alg».proof.Proof.K.Data
import Idealize.ShloMosaic.Lib.Pipeline.Value

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace DegB

/-! ## Whole-block rectangles -/

/-- The body's loads and stores go through the rectangle at offsets zero of the block's own sizes. -/
theorem offs_zero : (![0, 0] : Fin 2 → Nat) = fun _ => 0 := funext fun a => by fin_cases a <;> rfl

/-- A store through the whole-block rectangle, made LAST, leaves the block reading as its payload: the
    rectangle holds every index, so neither the contents before nor the earlier stores show through. -/
theorem read_writes_whole_last {S : Shape} {e : EltTy} {sp : Space} (v : View sig .tc sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y =>
      ⟨_, List.mem_cons.mpr (Or.inl rfl), View.mem_set_unit_zero h inb y⟩).trans
    (View.canon_cons_unit_zero h inb w L)

/-! ## The body on whole staging memrefs, case by case

Both cases end with ONE store of `k0_pay2 v x` through the whole-block rectangle, where `x` is the matrix
block as loaded and `v` the output block as loaded just before. That store covers the block, so the block
then reads as its payload (`read_writes_whole_last`). The cases differ in `v`: at a first column tile the
body has just stored the zero block `k0_pay1` through the same rectangle, and the load reads it back;
elsewhere nothing precedes the load, which reads what the memref was handed over with. -/

set_option maxHeartbeats 1000000 in
/-- A first column tile (`hc`): the output block, whatever it held, ends at the lane sums added to zero; the
    matrix block is only read. -/
theorem run_first (c : Dev nD) (i : grid0.Coords) (a2 : Memref sig .tc .vmem S1024x2048 .f32) (h2 : a2.IsWhole)
    (a3 : Memref sig .tc .vmem S1024x1 .f32) (h3 : a3.IsWhole) (hc : cond0_0 i) (x : Vec F S1024x2048 .f32)
    (E : Set ℕ) (K : PUnit → sProp 𝕄) :
    iprop(owns (c : Thread nD τ) a2 fullShare x ∗ (∃ d, owns (c : Thread nD τ) a3 fullShare d)
        ∗ (iprop(owns (c : Thread nD τ) a2 fullShare x
              ∗ owns (c : Thread nD τ) a3 fullShare (k0_pay2 (k0_pay1 (F := F)) x)) -∗ K ⟨⟩))
      ⊢ wp frame (wpE (defs₀ (F := F)) Variants.none c none) E (cc0__degree_kernel i a2 h2 a3 h3) K := by
  simp only [cc0__degree_kernel_eq_skeleton]; unfold cc0__degree_kernel_skel
  unfold owns
  iintro ⟨⟨%f2, %hf2, H2⟩, ⟨%d3, %f3, -, H3⟩, Hk⟩
  obtain rfl := h2.eq_unread hf2
  sl_exec (disch := first | exact hc)
  sl_step
  iapply Hk
  isplitl [H2]
  · iexists _; isplitr
    · ipureintro; exact h2.read_unread _
    · iexact H2
  iexists _; isplitr
  swap
  · iexact H3
  ipureintro
  -- the last store's payload, its first operand the reload of the zero block just stored
  sl_unfold_words
  refine (read_writes_whole_last _ _ offs_zero _ _ _).trans ?_
  rw [View.readCov_unit_zero (S := S1024x1) _ offs_zero]
  simp only [View.readAt_eq_ld, h2.read_unread, View.ld_unit_zero (S := S1024x2048) offs_zero]

set_option maxHeartbeats 1000000 in
/-- A later column tile (`hc`): the output block, handed over at `v`, ends at the lane sums added to `v`; the
    matrix block is only read. -/
theorem run_next (c : Dev nD) (i : grid0.Coords) (a2 : Memref sig .tc .vmem S1024x2048 .f32) (h2 : a2.IsWhole)
    (a3 : Memref sig .tc .vmem S1024x1 .f32) (h3 : a3.IsWhole) (hc : ¬cond0_0 i) (x : Vec F S1024x2048 .f32)
    (v : Vec F S1024x1 .f32) (E : Set ℕ) (K : PUnit → sProp 𝕄) :
    iprop(owns (c : Thread nD τ) a2 fullShare x ∗ owns (c : Thread nD τ) a3 fullShare v
        ∗ (iprop(owns (c : Thread nD τ) a2 fullShare x
              ∗ owns (c : Thread nD τ) a3 fullShare (k0_pay2 v x)) -∗ K ⟨⟩))
      ⊢ wp frame (wpE (defs₀ (F := F)) Variants.none c none) E (cc0__degree_kernel i a2 h2 a3 h3) K := by
  simp only [cc0__degree_kernel_eq_skeleton]; unfold cc0__degree_kernel_skel
  unfold owns
  iintro ⟨⟨%f2, %hf2, H2⟩, ⟨%f3, %hf3, H3⟩, Hk⟩
  obtain rfl := h2.eq_unread hf2
  obtain rfl := h3.eq_unread hf3
  sl_exec (disch := first | exact hc)
  sl_step
  iapply Hk
  isplitl [H2]
  · iexists _; isplitr
    · ipureintro; exact h2.read_unread _
    · iexact H2
  iexists _; isplitr
  swap
  · iexact H3
  ipureintro
  -- the one store's payload, its operands the two memrefs' contents as handed over
  sl_unfold_words
  refine (read_writes_whole_last _ _ offs_zero _ _ _).trans ?_
  simp only [View.readAt_eq_ld, h2.read_unread, h3.read_unread, View.ld_unit_zero (S := S1024x2048) offs_zero,
    View.ld_unit_zero (S := S1024x1) offs_zero]

/-! ## What the body is handed at a point -/

/-- The matrix window's current staging buffer holds the point's matrix block, whether or not the point fetched
    it: the window is an input, live and uncut everywhere, and the body leaves its block in place, so an
    unfetched buffer still holds the block of the point before, which is this point's (the block index has not
    moved). -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  refine ((dat0 V c).before_in_eq_fetched 0 rfl (fun _ => rfl) (fun _ _ _ => rfl) hkeep t d).trans ?_
  unfold Dat.fetched Dat.blockOf iblk0; rw [A_eq0]; try rfl

/-- Off the first column tile the output window's current staging buffer holds what the point before left: the
    point is not the first, and the point before, whose column tile is not the last, did not write the block
    back; the window is an output, live and uncut everywhere. -/
theorem before0_1_next (c : Dev nD) (t : Fin cfg0.N) (h0 : ¬t.val % 4 = 0) (d) :
    (dat0 V c).before 1 t d = degAt V c (t.val - 1) (Nat.lt_of_le_of_lt (Nat.sub_le _ _) t.isLt) := by
  have ht : t.val ≠ 0 := fun e => h0 (by rw [e])
  have hfl : (cfg0.win 1).flush ⟨t.val - 1, Nat.lt_of_le_of_lt (Nat.sub_le _ _) t.isLt⟩ = false := by
    rw [Bool.eq_false_iff]; intro h
    have h3 := (flush0_1 _).mp h
    dsimp only at h3
    omega
  exact ((dat0 V c).before_out_kept 1 rfl t ht hfl (fun _ => rfl) (fun _ _ => rfl) d).trans (after0_1 V c _)

/-! ## The body at a generic point -/

set_option maxHeartbeats 800000 in
/-- The body at point `t`, the windows one by one. The matrix buffer holds its block (`before0_0`). At a first
    column tile the output buffer's contents do not matter and the body leaves `degAt`'s first form
    (`run_first`); elsewhere the buffer holds `degAt` of the point before (`before0_1_next`) and the body leaves
    `degAt`'s next form (`run_next`). The invariant and what the core owes are the same at both ends and pass
    through untouched. -/
theorem sound_body (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t))) := by
  have hΦ : (dat0 V c).Φ t.succ = (dat0 V c).Φ t.castSucc := rfl
  have hO : (dat0 V c).owesAt () t.succ = (dat0 V c).owesAt () t.castSucc := rfl
  rw [hΦ, hO, after0_0, after0_1]
  simp only [before0_0 V]
  by_cases h0 : t.val % 4 = 0
  · rw [degAt_first V c t h0]
    iintro ⟨HΦ, HO, ⟨%d0, H0⟩, ⟨%d1, H1⟩⟩
    iapply (run_first c (grid0.coords t) _ _ _ _ ((hcond0_0 t).mpr h0) (iblk0 V c 0 t) Set.univ _)
    isplitl [H0]
    · iexact H0
    isplitl [H1]
    · iexists _; iexact H1
    iintro ⟨H0, H1⟩
    isplitl [HΦ]
    · iexact HΦ
    isplitl [HO]
    · iexact HO
    isplitl [H0]
    · iexact H0
    · iexact H1
  · rw [degAt_next V c t h0]
    simp only [before0_1_next V c t h0]
    iintro ⟨HΦ, HO, ⟨%d0, H0⟩, ⟨%d1, H1⟩⟩
    iapply (run_next c (grid0.coords t) _ _ _ _ (fun h => h0 ((hcond0_0 t).mp h)) (iblk0 V c 0 t) _ Set.univ _)
    isplitl [H0]
    · iexact H0
    isplitl [H1]
    · iexact H1
    iintro ⟨H0, H1⟩
    isplitl [HΦ]
    · iexact HΦ
    isplitl [HO]
    · iexact HO
    isplitl [H0]
    · iexact H0
    · iexact H1

end DegB

open DegB

/-- The library's body obligation for region 0, at every point. -/
theorem body_obligation0 (c : Dev nD) : BodyObligation (dat0 (F := F) V c) (defs₀ (F := F)) Variants.none () Set.univ := fun t => by
  rw [bigSep_W0, bigSep_W0]
  exact sound_body V c t

end Cert.Kernel.Gcn

end
-- ==== Proof.K.GcnBody.lean ====
/-
  Region 1's body at every grid point: handed its five input blocks, its output block and the scratch
  accumulator, it leaves the accumulator at `accAt` — cleared first when the column tile is the first,
  otherwise added to what the point before left — and, when the column tile is the last, the output
  block at `outAt`; at the other points the output block is handed back untouched.
-/
import proofs.«164056_j47261820125198_1_alg».proof.Proof.K.Data
import Idealize.ShloMosaic.Lib.Pipeline.Value

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace GcnB

/-! ## The invariant, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1 fullShare (accAt V c n hn) ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1 fullShare (accAt V c (n - 1) (by omega)) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The launch's invariant, its scoped buffers listed: the four staging buffers of the other region, the scratch as a
    memref owned at some contents, and the generator register. -/
theorem PhiA1_elim (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H0, H1, H2, H3, HS⟩, Hg⟩
  isplitl [H0 H1 H2 H3]
  · isplitl [H0]; · iexact H0
    isplitl [H1]; · iexact H1
    isplitl [H2]; · iexact H2
    iexact H3
  isplitl [HS]; · iexact HS
  iexact Hg

theorem PhiA1_intro (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H0, H1, H2, H3⟩, HS, Hg⟩
  isplitr [Hg]
  · isplitl [H0]; · iexact H0
    isplitl [H1]; · iexact H1
    isplitl [H2]; · iexact H2
    isplitl [H3]; · iexact H3
    iexact HS
  iexact Hg

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last column tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## What the body is handed in the inputs' staging buffers -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Reading back a buffer stored whole -/

theorem hz2 : (![0, 0] : Fin 2 → Nat) = fun _ => 0 := funext fun a => by fin_cases a <;> rfl

/-- A buffer whose last store went through the whole-shape rectangle at zero offsets reads that store's payload,
    whatever was stored before and whatever it held. -/
theorem read_writes_unit_zero_cons {sg : RefSig} {κ : Kind} {sp : Space} {S : Shape} {e : EltTy} {Val : EltTy → Type}
    [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-! ## The body's three runs

The column tile decides two branches, so a point is in one of three cases (first and last cannot both hold on a grid of
four column tiles). Each run is stated over any whole staging memrefs and any contents of the inputs. -/

set_option maxHeartbeats 1000000 in
/-- A first column tile that is not the last: the body clears the scratch, adds the block product onto the cleared
    scratch and leaves the output block as it found it. Handed the five input blocks, the output block at `xi5` and
    the scratch at anything, it returns them with the scratch at the product added to zero. -/
theorem run1_A (c : Dev nD) (i : grid1.Coords)
    (arg2 : Memref sig .tc .vmem S1024x2048 .f32) (harg2 : arg2.IsWhole)
    (arg3 : Memref sig .tc .vmem S2048x128 .f32) (harg3 : arg3.IsWhole)
    (arg4 : Memref sig .tc .vmem S2048x1 .f32) (harg4 : arg4.IsWhole)
    (arg5 : Memref sig .tc .vmem S1024x1 .f32) (harg5 : arg5.IsWhole)
    (arg6 : Memref sig .tc .vmem S128x64 .f32) (harg6 : arg6.IsWhole)
    (arg7 : Memref sig .tc .vmem S1024x64 .f32) (harg7 : arg7.IsWhole)
    (arg8 : Memref sig .tc .vmem S1024x128 .f32) (harg8 : arg8.IsWhole)
    (hc0 : cond1_0 i) (hc1 : ¬cond1_1 i)
    (x0 : Vec F S1024x2048 .f32) (x1 : Vec F S2048x128 .f32) (x2 : Vec F S2048x1 .f32) (x3 : Vec F S1024x1 .f32) (x4 : Vec F S128x64 .f32)
    (xi5 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare xi5 ∗ (∃ d, owns (c : Thread nD τ) arg8 fullShare d)
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
              ∗ owns (c : Thread nD τ) arg7 fullShare xi5 ∗ owns (c : Thread nD τ) arg8 fullShare (k1_pay2 x1 x2 x0 (k1_pay1 (F := F)))) -∗ K ⟨⟩))
      ⊢ wp frame (wpE (defs₀ (F := F)) Variants.none c none) E
          (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_writes_unit_zero_cons _ _ hz2]
  sl_unfold_words
  simp only [View.readAt_eq_ld, harg2.read_unread, harg3.read_unread, harg4.read_unread,
    View.ld_unit_zero (S := S1024x2048) hz2, View.ld_unit_zero (S := S2048x128) hz2, View.ld_unit_zero (S := S2048x1) hz2, View.readCov_unit_zero (S := S1024x128) _ hz2]

set_option maxHeartbeats 1000000 in
/-- A column tile that is neither first nor last: the body adds the block product onto the scratch it is handed
    (at `xs`) and leaves the output block as it found it. -/
theorem run1_B (c : Dev nD) (i : grid1.Coords)
    (arg2 : Memref sig .tc .vmem S1024x2048 .f32) (harg2 : arg2.IsWhole)
    (arg3 : Memref sig .tc .vmem S2048x128 .f32) (harg3 : arg3.IsWhole)
    (arg4 : Memref sig .tc .vmem S2048x1 .f32) (harg4 : arg4.IsWhole)
    (arg5 : Memref sig .tc .vmem S1024x1 .f32) (harg5 : arg5.IsWhole)
    (arg6 : Memref sig .tc .vmem S128x64 .f32) (harg6 : arg6.IsWhole)
    (arg7 : Memref sig .tc .vmem S1024x64 .f32) (harg7 : arg7.IsWhole)
    (arg8 : Memref sig .tc .vmem S1024x128 .f32) (harg8 : arg8.IsWhole)
    (hc0 : ¬cond1_0 i) (hc1 : ¬cond1_1 i)
    (x0 : Vec F S1024x2048 .f32) (x1 : Vec F S2048x128 .f32) (x2 : Vec F S2048x1 .f32) (x3 : Vec F S1024x1 .f32) (x4 : Vec F S128x64 .f32)
    (xi5 : Vec F S1024x64 .f32) (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare xi5 ∗ owns (c : Thread nD τ) arg8 fullShare xs
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
              ∗ owns (c : Thread nD τ) arg7 fullShare xi5 ∗ owns (c : Thread nD τ) arg8 fullShare (k1_pay2 x1 x2 x0 xs)) -∗ K ⟨⟩))
      ⊢ wp frame (wpE (defs₀ (F := F)) Variants.none c none) E
          (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_writes_unit_zero_cons _ _ hz2]
  simp only [View.readAt_eq_ld, harg2.read_unread, harg3.read_unread, harg4.read_unread,
    View.ld_unit_zero (S := S1024x2048) hz2, View.ld_unit_zero (S := S2048x128) hz2, View.ld_unit_zero (S := S2048x1) hz2, harg8.read_unread, View.ld_unit_zero (S := S1024x128) hz2]

set_option maxHeartbeats 1000000 in
/-- A last column tile that is not the first: the body adds the block product onto the scratch it is handed (at `xs`),
    reads the sum back, scales it row by row, multiplies by the weights, clamps at zero and stores the output block. -/
theorem run1_C (c : Dev nD) (i : grid1.Coords)
    (arg2 : Memref sig .tc .vmem S1024x2048 .f32) (harg2 : arg2.IsWhole)
    (arg3 : Memref sig .tc .vmem S2048x128 .f32) (harg3 : arg3.IsWhole)
    (arg4 : Memref sig .tc .vmem S2048x1 .f32) (harg4 : arg4.IsWhole)
    (arg5 : Memref sig .tc .vmem S1024x1 .f32) (harg5 : arg5.IsWhole)
    (arg6 : Memref sig .tc .vmem S128x64 .f32) (harg6 : arg6.IsWhole)
    (arg7 : Memref sig .tc .vmem S1024x64 .f32) (harg7 : arg7.IsWhole)
    (arg8 : Memref sig .tc .vmem S1024x128 .f32) (harg8 : arg8.IsWhole)
    (hc0 : ¬cond1_0 i) (hc1 : cond1_1 i)
    (x0 : Vec F S1024x2048 .f32) (x1 : Vec F S2048x128 .f32) (x2 : Vec F S2048x1 .f32) (x3 : Vec F S1024x1 .f32) (x4 : Vec F S128x64 .f32)
    (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ (∃ d, owns (c : Thread nD τ) arg7 fullShare d) ∗ owns (c : Thread nD τ) arg8 fullShare xs
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
              ∗ owns (c : Thread nD τ) arg7 fullShare (k1_pay3 (k1_pay2 x1 x2 x0 xs) x3 x4) ∗ owns (c : Thread nD τ) arg8 fullShare (k1_pay2 x1 x2 x0 xs)) -∗ K ⟨⟩))
      ⊢ wp frame (wpE (defs₀ (F := F)) Variants.none c none) E
          (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_writes_unit_zero_cons _ _ hz2]
    sl_unfold_words
    simp only [View.readAt_eq_ld, harg2.read_unread, harg3.read_unread, harg4.read_unread,
    View.ld_unit_zero (S := S1024x2048) hz2, View.ld_unit_zero (S := S2048x128) hz2, View.ld_unit_zero (S := S2048x1) hz2, harg5.read_unread, harg6.read_unread, harg8.read_unread,
      View.ld_unit_zero (S := S1024x1) hz2, View.ld_unit_zero (S := S128x64) hz2, View.ld_unit_zero (S := S1024x128) hz2,
      View.readCov_unit_zero (S := S1024x128) _ hz2]
  iexists _; isplitr
  swap; · iexact HS
  ipureintro
  sl_unfold_words
  rw [read_writes_unit_zero_cons _ _ hz2]
  simp only [View.readAt_eq_ld, harg2.read_unread, harg3.read_unread, harg4.read_unread,
    View.ld_unit_zero (S := S1024x2048) hz2, View.ld_unit_zero (S := S2048x128) hz2, View.ld_unit_zero (S := S2048x1) hz2, harg8.read_unread, View.ld_unit_zero (S := S1024x128) hz2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) :
    (dat1 V c).leavesExact 0 t = owns (c : Thread nD τ) (win1_0.stage (cfg1.slots t 0)) fullShare (iblk1 V c 0 t) := by
  unfold Dat.leavesExact; rw [liveAt1_0 t, after1_0]
theorem leaves1_1 (c : Dev nD) (t : Fin cfg1.N) :
    (dat1 V c).leavesExact 1 t = owns (c : Thread nD τ) (win1_1.stage (cfg1.slots t 1)) fullShare (iblk1 V c 1 t) := by
  unfold Dat.leavesExact; rw [liveAt1_1 t, after1_1]
theorem leaves1_2 (c : Dev nD) (t : Fin cfg1.N) :
    (dat1 V c).leavesExact 2 t = owns (c : Thread nD τ) (win1_2.stage (cfg1.slots t 2)) fullShare (iblk1 V c 2 t) := by
  unfold Dat.leavesExact; rw [liveAt1_2 t, after1_2]
theorem leaves1_3 (c : Dev nD) (t : Fin cfg1.N) :
    (dat1 V c).leavesExact 3 t = owns (c : Thread nD τ) (win1_3.stage (cfg1.slots t 3)) fullShare (iblk1 V c 3 t) := by
  unfold Dat.leavesExact; rw [liveAt1_3 t, after1_3]
theorem leaves1_4 (c : Dev nD) (t : Fin cfg1.N) :
    (dat1 V c).leavesExact 4 t = owns (c : Thread nD τ) (win1_4.stage (cfg1.slots t 4)) fullShare (iblk1 V c 4 t) := by
  unfold Dat.leavesExact; rw [liveAt1_4 t, after1_4]
/-- At a last column tile the output window is left at the stored block. -/
theorem leaves1_5_live (c : Dev nD) (t : Fin cfg1.N) (hc1 : cond1_1 (grid1.coords t)) :
    (dat1 V c).leavesExact 5 t = owns (c : Thread nD τ) (win1_5.stage (cfg1.slots t 5)) fullShare (outAt V c t.val t.isLt) := by
  unfold Dat.leavesExact; rw [liveAt1_5 t hc1, after1_5]

set_option maxHeartbeats 4800000 in
/-- The body at any point. The inputs' buffers hold their blocks; the column tile says which of the three runs
    applies; the invariant hands the run the scratch (at anything before the first point, at what the point before
    left afterwards) and takes it back at this point's accumulator; the output window is handed back untouched
    away from a last column tile and left at the stored block at one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1)]
    rw [accAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_elim c) $$ HΦ
      icases HΦ' with ⟨Hr, HS, Hg⟩
      iapply (run1_A c (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS1_castSucc V c t, PhiS1_pos V c _ _ hz]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hc0 : ¬cond1_0 (grid1.coords t) := fun h => h0 ((hcond1_0 t).mp h)
    have hz : t.val ≠ 0 := fun h => h0 (by rw [h])
    rw [accAt_next V c t h0]
    rw [PhiS1_castSucc V c t, PhiS1_pos V c _ _ hz]
    by_cases h1 : t.val % 4 = 3
    · have hc1 : cond1_1 (grid1.coords t) := (hcond1_1 t).mpr h1
      rw [leaves1_5_live V c t hc1]
      unfold outAt
      rw [accAt_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ hc0 hc1
        (iblk1 V c 0 t) (iblk1 V c 1 t) (iblk1 V c 2 t) (iblk1 V c 3 t) (iblk1 V c 4 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- After any point but the first the invariant gives the launch's back: the scratch's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht]
  iintro ⟨Hr, HS, Hg⟩
  iapply (PhiA1_intro c)
  isplitl [Hr]; · iexact Hr
  isplitl [HS]; · iexists _; iexact HS
  iexact Hg

end GcnB

open GcnB

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  rw [show (dat1 V c).Φ 0 = PhiS1 V c 0 (Nat.zero_le _) from rfl, PhiS1_zero V c 0 _ rfl]

/-- After the last point the invariant gives everything scoped back at some contents. -/
theorem hout1 (c : Dev nD) : (dat1 (F := F) V c).Φ (Fin.last cfg1.N) ⊢ (Pipeline.ΦA spec1 c : sProp 𝕄) :=
  Phi_out1 V c _ (by rw [Fin.val_last]; have : cfg1.N = 32 := N_1; omega)

end Cert.Kernel.Gcn

end
-- ==== Proof.K.Launch.lean ====
/-
  The run of @main: region 0, the host stretch, region 1, each entered from what the item before it
  left; every weakly fair execution ends with every unscoped buffer at the last boundary's contents.
-/
import proofs.«164056_j47261820125198_1_alg».proof.Proof.K.Bounds
import proofs.«164056_j47261820125198_1_alg».proof.Proof.K.DegreeBody
import proofs.«164056_j47261820125198_1_alg».proof.Proof.K.GcnBody

set_option maxRecDepth 16384

noncomputable section

namespace Cert.Kernel.Gcn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Lnch

/-! ## The host stretch: nothing allocated, four arrays written -/

/-- No operation of the host stretch allocates a buffer. -/
theorem host_fresh : (hostOps1 : List (HloOp τ sig (Elt F))).Forall fun op => op.fresh = ∅ := by
  simp only [List.Forall]; repeat' constructor

/-- The arrays the host stretch writes: the square root, the constant one, its broadcast, the quotient. -/
abbrev hostW : List (Ref sig .tc) := [main_v1, main_cst, main_v2, main_v3]

theorem host_writes : (hostOps1 : List (HloOp τ sig (Elt F))).Forall fun op =>
    op.writes ⊆ (hostW.map (Proc.devRef (τ := τ) .tc)).toFinset := by
  simp only [List.Forall, StableHlo.nullary_writes, StableHlo.unary_writes, StableHlo.binary_writes,
    Finset.singleton_subset_iff, List.mem_toFinset]
  exact ⟨List.mem_map_of_mem (by decide), List.mem_map_of_mem (by decide), List.mem_map_of_mem (by decide),
    List.mem_map_of_mem (by decide)⟩

/-! ## Each boundary's contents off the arrays its item writes -/

theorem W1_of (c : Dev nD) (r : Ref sig .tc) (h : r ≠ main_v0) :
    W1 m c (Proc.devRef .tc r) = W0 m c (Proc.devRef .tc r) :=
  Function.update_of_ne (StableHlo.devRef_ne_of_ne h) _ _
theorem W1_v0 (c : Dev nD) : W1 m c (Proc.devRef .tc main_v0) = deg m c := Function.update_self _ _ _
theorem W2_of (c : Dev nD) (r : Ref sig .tc) (h : r ∉ hostW) :
    W2 m c (Proc.devRef .tc r) = W1 m c (Proc.devRef .tc r) :=
  StableHlo.after_of_writes_sub hostOps1 _ host_writes h
theorem W3_of (c : Dev nD) (r : Ref sig .tc) (h : r ≠ main_v4) :
    W3 m c (Proc.devRef .tc r) = W2 m c (Proc.devRef .tc r) :=
  Function.update_of_ne (StableHlo.devRef_ne_of_ne h) _ _

/-! ## The proof data of both regions, and what rides beside the buffers -/

/-- Neither region prefetches a table. -/
abbrev adm : (p : Fin 2) → (pcfgs (F := F) p).Adm := fun p => (cfgs p).toPCfg_adm

/-- Region 0's data at the launch contents, region 1's at the contents after the host stretch. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state, and nothing owed. -/
abbrev R (c : Dev nD) : sProp 𝕄 :=
  iprop((∃ r, prngReg c r) ∗ ∃ W, owes (c : Thread nD τ) (0 : CellTallies nD τ sig Unit) W)

/-- The last thread state without the dues: every unscoped buffer at `W3`, the generator register at some state. -/
abbrev Tₙ (c : Dev nD) : sProp 𝕄 :=
  iprop(StableHlo.held (c : Thread nD τ) (Pipeline.ucRefs τ sig) (W3 m c) ∗ ∃ r, prngReg c r)

/-- The host stretch from the contents region 0 leaves: it ends at `W2` by definition. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp host_fresh) op h) (W1 m) R

/-! ## Region 0: the row sums -/

/-- At region 0's exit the matrix is as entered (an input array is never written) and the row-sum array is `deg`. -/
theorem hF0 (c : Dev nD) : ∀ w : Fin cfg0.W,
    (dat0 (V0 m) c).arrAt w cfg0.N = (fun b : Ref sig .tc => W1 m c b) (Pipeline.arrRef spec0 w)
  | ⟨0, _⟩ => ((dat0 (V0 m) c).arrAt_in 0 rfl _).trans ((A_eq0 (V0 m) c 0).trans (W1_of m c main_arg1 (by decide)).symm)
  | ⟨1, _⟩ => (W1_v0 m c).symm

/-- Off region 0's arrays nothing has changed. -/
theorem hrest0 (c : Dev nD) : ∀ b : Ref sig .tc, b ∉ Finset.univ.image (Pipeline.arrRef spec0) →
    (fun b : Ref sig .tc => W1 m c b) b = V0 m c b :=
  fun b hb => W1_of m c b fun e => hb (e ▸ Finset.mem_image.mpr ⟨1, Finset.mem_univ _, rfl⟩)

set_option backward.isDefEq.respectTransparency.types false in
/-- Region 0 over the thread state: entered from every unscoped buffer at the launch contents, left with the
    row-sum array at `deg`. Its two arrays are distinct, so they split out of the unscoped buffers and go back
    at the exit contents; the generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the normalised product. Two of its windows are on one array -/

/-- Every unscoped buffer of the core, listed: region 1's five arrays, then the four it does not touch. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg1) ↦{fullShare} V main_arg1) ∗ (((c : Thread nD τ).loc main_arg0) ↦{fullShare} V main_arg0)
        ∗ (((c : Thread nD τ).loc main_v3) ↦{fullShare} V main_v3) ∗ (((c : Thread nD τ).loc main_arg2) ↦{fullShare} V main_arg2)
        ∗ (((c : Thread nD τ).loc main_v4) ↦{fullShare} V main_v4) ∗ (((c : Thread nD τ).loc main_v0) ↦{fullShare} V main_v0)
        ∗ (((c : Thread nD τ).loc main_v1) ↦{fullShare} V main_v1) ∗ (((c : Thread nD τ).loc main_cst) ↦{fullShare} V main_cst)
        ∗ (((c : Thread nD τ).loc main_v2) ↦{fullShare} V main_v2)) := by
  unfold unscopedBufs
  exact bigSep_eq_bigSepL_of_eq [main_arg1, main_arg0, main_v3, main_arg2, main_v4, main_v0, main_v1, main_cst, main_v2]
    (by decide) (by decide) _

/-- Region 1's arrays window by window: the matrix, the features, the factor column at its left half for the
    column-side window and at its right half for the row-side one, the weights, the result. -/
theorem arrays1_list (V : (c : Dev nD) → (b : Ref sig .tc) → Buf (Elt F) ((c : Thread nD τ).loc b)) (c : Dev nD)
    (Fw : (w : Fin cfg1.W) → Buf (Elt F) ((cfg1.win w).arr.view.loc (c : Thread nD τ)))
    {f0 : Buf (Elt F) ((c : Thread nD τ).loc main_arg1)} {f1 : Buf (Elt F) ((c : Thread nD τ).loc main_arg0)}
    {f2 f3 : Buf (Elt F) ((c : Thread nD τ).loc main_v3)} {f4 : Buf (Elt F) ((c : Thread nD τ).loc main_arg2)}
    {f5 : Buf (Elt F) ((c : Thread nD τ).loc main_v4)}
    (h0 : Fw 0 = f0) (h1 : Fw 1 = f1) (h2 : Fw 2 = f2) (h3 : Fw 3 = f3) (h4 : Fw 4 = f4) (h5 : Fw 5 = f5) :
    ((dat1 V c).arrays Fw : sProp 𝕄)
      = iprop((((c : Thread nD τ).loc main_arg1) ↦{fullShare} f0) ∗ (((c : Thread nD τ).loc main_arg0) ↦{fullShare} f1)
        ∗ (((c : Thread nD τ).loc main_v3) ↦{fullShare.left} f2) ∗ (((c : Thread nD τ).loc main_v3) ↦{fullShare.right} f3)
        ∗ (((c : Thread nD τ).loc main_arg2) ↦{fullShare} f4) ∗ (((c : Thread nD τ).loc main_v4) ↦{fullShare} f5)) := by
  subst h0 h1 h2 h3 h4 h5
  unfold Dat.arrays
  rw [bigSep_W1]
  rw [show (cfg1.win 0).arr.view.set = Finset.univ from (arr_whole1 0).set_eq_univ,
    show (cfg1.win 1).arr.view.set = Finset.univ from (arr_whole1 1).set_eq_univ,
    show (cfg1.win 2).arr.view.set = Finset.univ from (arr_whole1 2).set_eq_univ,
    show (cfg1.win 4).arr.view.set = Finset.univ from (arr_whole1 4).set_eq_univ,
    show (cfg1.win 5).arr.view.set = Finset.univ from (arr_whole1 5).set_eq_univ]
  rfl

/-- ENTRY. Every unscoped buffer at the contents after the host stretch is region 1's arrays at those contents —
    the factor column's full share split into its two halves, one per window on it — beside the four buffers
    the region does not touch. -/
theorem entry1 (c : Dev nD) :
    (StableHlo.held (c : Thread nD τ) (Pipeline.ucRefs τ sig) (W2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c),
    unscopedBufs_list,
    arrays1_list (V2 m) c (fun w => (dat1 (V2 m) c).arrAt w 0) (f0 := V2 m c main_arg1) (f1 := V2 m c main_arg0) (f2 := V2 m c main_v3) (f3 := V2 m c main_v3)
      (f4 := V2 m c main_arg2) (f5 := V2 m c main_v4) rfl rfl rfl rfl rfl rfl,
    unscopedRest1_eq]
  iintro ⟨H1, H0, H3, H2, H4, Hv0, Hv1, Hc, Hv2⟩
  ihave H3 := (pointsTo_share (PosShare.mem_left_op_right fullShare)).1 $$ H3
  icases H3 with ⟨H3l, H3r⟩
  isplitl [H1 H0 H3l H3r H2 H4]
  · isplitl [H1]; · iexact H1
    isplitl [H0]; · iexact H0
    isplitl [H3l]; · iexact H3l
    isplitl [H3r]; · iexact H3r
    isplitl [H2]; · iexact H2
    iexact H4
  isplitl [Hv0]; · iexact Hv0
  isplitl [Hv1]; · iexact Hv1
  isplitl [Hc]; · iexact Hc
  iexact Hv2

theorem W3_v4 (c : Dev nD) : W3 m c (Proc.devRef .tc main_v4) = res m c := Function.update_self _ _ _

/-- At region 1's exit every input array is as entered (an input array is never written), which no later item
    changes, and the result array is `res`. -/
theorem hF1 (c : Dev nD) : ∀ w : Fin cfg1.W,
    (dat1 (V2 m) c).arrAt w cfg1.N = W3 m c (Proc.devRef .tc (Pipeline.arrRef spec1 w))
  | ⟨0, _⟩ => ((dat1 (V2 m) c).arrAt_in 0 rfl _).trans ((A_eq1 (V2 m) c 0).trans (W3_of m c main_arg1 (by decide)).symm)
  | ⟨1, _⟩ => ((dat1 (V2 m) c).arrAt_in 1 rfl _).trans ((A_eq1 (V2 m) c 1).trans (W3_of m c main_arg0 (by decide)).symm)
  | ⟨2, _⟩ => ((dat1 (V2 m) c).arrAt_in 2 rfl _).trans ((A_eq1 (V2 m) c 2).trans (W3_of m c main_v3 (by decide)).symm)
  | ⟨3, _⟩ => ((dat1 (V2 m) c).arrAt_in 3 rfl _).trans ((A_eq1 (V2 m) c 3).trans (W3_of m c main_v3 (by decide)).symm)
  | ⟨4, _⟩ => ((dat1 (V2 m) c).arrAt_in 4 rfl _).trans ((A_eq1 (V2 m) c 4).trans (W3_of m c main_arg2 (by decide)).symm)
  | ⟨5, _⟩ => (W3_v4 m c).symm

/-- EXIT. Region 1's arrays at what its write-backs leave — the two halves of the factor column, both at the
    contents the region entered with, joined back into the full share — beside the four buffers it did not
    touch are every unscoped buffer at `W3`. -/
theorem exit1 (c : Dev nD) :
    iprop((dat1 (V2 m) c).arrays ((dat1 (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    unscopedBufs_list,
    arrays1_list (V2 m) c (fun w => (dat1 (V2 m) c).arrAt w cfg1.N) (hF1 m c 0) (hF1 m c 1) (hF1 m c 2) (hF1 m c 3) (hF1 m c 4) (hF1 m c 5),
    unscopedRest1_eq,
    show V2 m c main_v0 = W3 m c (Proc.devRef .tc main_v0) from (W3_of m c main_v0 (by decide)).symm,
    show V2 m c main_v1 = W3 m c (Proc.devRef .tc main_v1) from (W3_of m c main_v1 (by decide)).symm,
    show V2 m c main_cst = W3 m c (Proc.devRef .tc main_cst) from (W3_of m c main_cst (by decide)).symm,
    show V2 m c main_v2 = W3 m c (Proc.devRef .tc main_v2) from (W3_of m c main_v2 (by decide)).symm]
  iintro ⟨⟨H1, H0, H3l, H3r, H2, H4⟩, Hv0, Hv1, Hc, Hv2⟩
  ihave H3 := (pointsTo_share (PosShare.mem_left_op_right fullShare)).2 $$ [H3l H3r]
  · isplitl [H3l] <;> iassumption
  isplitl [H1]; · iexact H1
  isplitl [H0]; · iexact H0
  isplitl [H3]; · iexact H3
  isplitl [H2]; · iexact H2
  isplitl [H4]; · iexact H4
  isplitl [Hv0]; · iexact Hv0
  isplitl [Hv1]; · iexact Hv1
  isplitl [Hc]; · iexact Hc
  iexact Hv2

set_option backward.isDefEq.respectTransparency.types false in
/-- Region 1 over the thread state: entered from every unscoped buffer at the contents after the host stretch,
    left with the result array at `res`. The generator register goes into the invariant before the first point and
    comes out after the last; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (V2 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last (Pipeline.pin (pcfgs (F := F)) adm 1).N) ⊢ (Pipeline.ΦA spec1 c : sProp 𝕄) := hout1 (V2 m) c
    unfold Pipeline.ΦA at h
    iintro Hi
    ihave H := h $$ Hi
    icases H with ⟨Hr, Hp⟩
    isplitl [Hp]; · iexact Hp
    isplitr; · iempintro
    iexact Hr
  hexit c := by
    have hjoin := exit1 m c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as its three items, and the launch -/

/-- @main's items in order: region 0, the host stretch, region 1. -/
abbrev segs : List (Pipeline.Seg (pcfgs (F := F)) adm (pdats m) () defs₀ 𝒱₀ L lv) :=
  [ .region (reg0 m), .host (hseg m), .region (reg1 m) ]

/-- @main is the run of those items. -/
theorem main_run (c : Dev nD) : main (F := F) c = Pipeline.Seg.run (segs m) := (main_chain c).trans (by chain_rfl)

end Lnch

open Lnch

set_option backward.isDefEq.respectTransparency.types false in
/-- Every weakly fair execution of @main from `m` with zero counters terminates, nothing faulting, and the
    final memory holds every unscoped buffer at `W3`: the launch contents, but the row-sum array at `deg`,
    the host stretch's four results, and the result array at `res`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: each ends as launched. -/
theorem W3_main_arg0 (c : Dev nD) : W3 m c (Proc.devRef .tc main_arg0) = m ((c : Thread nD τ).loc main_arg0) :=
  (W3_of m c main_arg0 (by decide)).trans <| (W2_of m c main_arg0 (by decide)).trans <| (W1_of m c main_arg0 (by decide)).trans rfl
theorem W3_main_arg1 (c : Dev nD) : W3 m c (Proc.devRef .tc main_arg1) = m ((c : Thread nD τ).loc main_arg1) :=
  (W3_of m c main_arg1 (by decide)).trans <| (W2_of m c main_arg1 (by decide)).trans <| (W1_of m c main_arg1 (by decide)).trans rfl
theorem W3_main_arg2 (c : Dev nD) : W3 m c (Proc.devRef .tc main_arg2) = m ((c : Thread nD τ).loc main_arg2) :=
  (W3_of m c main_arg2 (by decide)).trans <| (W2_of m c main_arg2 (by decide)).trans <| (W1_of m c main_arg2 (by decide)).trans rfl
/-- The result array ends at `res`. -/
theorem W3_main_v4 (c : Dev nD) : W3 m c (Proc.devRef .tc main_v4) = res m c :=
  Function.update_self _ _ _

end Cert.Kernel.Gcn

end
-- ==== Proof.KI.Data.lean ====
/-
  The two kernel regions' data, at the buffer contents `V` each region is entered from.

  The grid of both regions is 8 row tiles by 4 column tiles, walked row-major: point `t` is
  row tile `t / 4`, column tile `k = t % 4`.

  Region 0 (row sums). At point `t` the body adds to its 1024-row output block the lane sums of the
  1024 x 2048 block of the matrix, after clearing the block when `k = 0`; the block is written back
  when `k = 3`. `degAt n` is what the output's staging buffer holds after point `n`.

  Region 1 (the normalised product). At point `t` the body adds to a 1024 x 128 scratch accumulator
  the product of the matrix block with the feature block scaled row by row by the column-side
  factors, after clearing it when `k = 0`; when `k = 3` it scales the accumulator row by row by the
  row-side factors, multiplies by the weights, clamps at zero and stores the 1024 x 64 output block,
  which is then written back. `accAt n` is the scratch after point `n`, `outAt n` the block stored at
  a point with `k = 3`. The column-side and row-side factors are two windows on ONE array, read
  only: the array is held at its two half shares.
-/
import proofs.«164056_j47261820125198_1_alg».proof.Proof.Gen.KernelIdeal.Launch
import proofs.«164056_j47261820125198_1_alg».proof.Proof.Gen.KernelIdeal.Skeleton
import proofs.«164056_j47261820125198_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The bodies' branch conditions, decided over the grid -/

/-- Region 0 clears its output block: the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- Region 1 clears its accumulator: the column tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- Region 1 finishes its output block: the column tile is the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## What the staging buffers and the scratch hold after each point -/

/-- Region 0's output block after point `n`: the lane sums of the matrix block added to zero at a first
    column tile, to what the point before left otherwise. -/
def degAt (c : Dev nD) : (n : ℕ) → n < cfg0.N → Vec F S1024x1 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (degAt c n (Nat.lt_of_succ_lt hn)) (iblk0 V c 0 ⟨n + 1, hn⟩)

theorem degAt_first (c : Dev nD) (t : Fin cfg0.N) (h0 : t.val % 4 = 0) :
    degAt V c t.val t.isLt = k0_pay2 (k0_pay1 (F := F)) (iblk0 V c 0 t) := by
  obtain ⟨n, hn⟩ := t
  cases n with
  | zero => rfl
  | succ n => exact if_pos h0

theorem degAt_next (c : Dev nD) (t : Fin cfg0.N) (h0 : ¬t.val % 4 = 0) :
    degAt V c t.val t.isLt = k0_pay2 (degAt V c (t.val - 1) (Nat.lt_of_le_of_lt (Nat.sub_le _ _) t.isLt)) (iblk0 V c 0 t) := by
  obtain ⟨n, hn⟩ := t
  cases n with
  | zero => exact absurd (Nat.zero_mod _) h0
  | succ n => exact if_neg h0

/-- Region 1's scratch accumulator after point `n`. -/
def accAt (c : Dev nD) : (n : ℕ) → n < cfg1.N → Vec F S1024x128 .f32
  | 0, hn => k1_pay2 (iblk1 V c 1 ⟨0, hn⟩) (iblk1 V c 2 ⟨0, hn⟩) (iblk1 V c 0 ⟨0, hn⟩) (k1_pay1 (F := F))
  | n + 1, hn =>
    if (n + 1) % 4 = 0 then k1_pay2 (iblk1 V c 1 ⟨n + 1, hn⟩) (iblk1 V c 2 ⟨n + 1, hn⟩) (iblk1 V c 0 ⟨n + 1, hn⟩) (k1_pay1 (F := F))
    else k1_pay2 (iblk1 V c 1 ⟨n + 1, hn⟩) (iblk1 V c 2 ⟨n + 1, hn⟩) (iblk1 V c 0 ⟨n + 1, hn⟩) (accAt c n (Nat.lt_of_succ_lt hn))

theorem accAt_first (c : Dev nD) (t : Fin cfg1.N) (h0 : t.val % 4 = 0) :
    accAt V c t.val t.isLt = k1_pay2 (iblk1 V c 1 t) (iblk1 V c 2 t) (iblk1 V c 0 t) (k1_pay1 (F := F)) := by
  obtain ⟨n, hn⟩ := t
  cases n with
  | zero => rfl
  | succ n => exact if_pos h0

theorem accAt_next (c : Dev nD) (t : Fin cfg1.N) (h0 : ¬t.val % 4 = 0) :
    accAt V c t.val t.isLt = k1_pay2 (iblk1 V c 1 t) (iblk1 V c 2 t) (iblk1 V c 0 t)
      (accAt V c (t.val - 1) (Nat.lt_of_le_of_lt (Nat.sub_le _ _) t.isLt)) := by
  obtain ⟨n, hn⟩ := t
  cases n with
  | zero => exact absurd (Nat.zero_mod _) h0
  | succ n => exact if_neg h0

/-- Region 1's output block as stored at point `n` (a last column tile): the accumulator scaled by the
    row-side factors, times the weights, clamped at zero. At the other points nothing consults it. -/
def outAt (c : Dev nD) (n : ℕ) (hn : n < cfg1.N) : Vec F S1024x64 .f32 :=
  k1_pay3 (accAt V c n hn) (iblk1 V c 3 ⟨n, hn⟩) (iblk1 V c 4 ⟨n, hn⟩)

/-! ## Region 1's invariant: the scratch carried between points -/

/-- The scratch operand, a whole scoped buffer of the kernel's own. -/
abbrev scM1 : Memref sig .tc .vmem S1024x128 .f32 := Memref.whole cc1_scratch0

/-- The scoped buffers region 1 does not stage, the scratch apart, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Before the first point everything scoped is at some contents (the library's `ΦA`); before point `n + 1`
    the scratch holds what point `n` left. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt V c n hn) ∗ (∃ r, prngReg c r))

/-! ## The proof data -/

/-- Region 0 on core `c`: the arrays as the region finds them; the matrix block left in place, the output
    block at `degAt`; nothing scoped is named; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => degAt V c t.val t.isLt
  Φ _ := Pipeline.ΦA spec0 c
  q _ := fullShare
  owed _ := 0

/-- Region 1 on core `c`: the arrays as the region finds them; every input block left in place, the output
    block at `outAt`; the scratch carried (`PhiS1`); nothing owed; the factors' array at its two half
    shares, one per window on it, the other inputs at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t.val t.isLt
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = degAt V c t.val t.isLt := by dsimp only [dat0]

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t.val t.isLt := by dsimp only [dat1]

end Cert.KernelIdeal.Gcn

end
-- ==== Proof.KI.Bounds.lean ====
/-
  The buffer contents between @main's items, a fold from the launch memory `m`:
  region 0 is entered from the launch memory and changes only the row-sum array, to `deg`;
  the host stretch then takes its square root and reciprocal; region 1 is entered from that and
  changes only the result array, to `res`.
-/
import proofs.«164056_j47261820125198_1_alg».proof.Proof.KI.Data

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- The same read at a TensorCore reference: what region 0 is entered from. -/
abbrev V0 (c : Dev nD) (b : Ref sig .tc) : Buf (Elt F) ((c : Thread nD τ).loc b) := W0 m c b
/-- The row-sum array as region 0's write-backs leave it. -/
def deg (c : Dev nD) : Buf (Elt F) ((c : Thread nD τ).loc main_v0) := (dat0 (V0 m) c).arrAt 1 cfg0.N
/-- After region 0: only the row-sum array has changed. -/
abbrev W1 (c : Dev nD) : Valuation τ sig (Elt F) := Function.update (W0 m c) main_v0 (deg m c)
/-- After the host stretch (square root, the constant one, its broadcast, the quotient). -/
abbrev W2 (c : Dev nD) : Valuation τ sig (Elt F) := StableHlo.after hostOps1 (W1 m c)
/-- The same read at a TensorCore reference: what region 1 is entered from. -/
abbrev V2 (c : Dev nD) (b : Ref sig .tc) : Buf (Elt F) ((c : Thread nD τ).loc b) := W2 m c b
/-- The result array as region 1's write-backs leave it. -/
def res (c : Dev nD) : Buf (Elt F) ((c : Thread nD τ).loc main_v4) := (dat1 (V2 m) c).arrAt 5 cfg1.N
/-- After region 1: only the result array has changed. -/
abbrev W3 (c : Dev nD) : Valuation τ sig (Elt F) := Function.update (W2 m c) main_v4 (res m c)

end Cert.KernelIdeal.Gcn

end
-- ==== Proof.KI.DegreeBody.lean ====
/-
  Region 0's body at every grid point: handed the matrix block and its own output block, it leaves
  the output block at `degAt` — cleared first when the column tile is the first, otherwise added to
  what the point before left, which the pipeline has not written back in between.
-/
import proofs.«164056_j47261820125198_1_alg».proof.Proof.KI.Data
import Idealize.ShloMosaic.Lib.Pipeline.Value

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace DegB

/-! ## Whole-block rectangles -/

/-- The body's loads and stores go through the rectangle at offsets zero of the block's own sizes. -/
theorem offs_zero : (![0, 0] : Fin 2 → Nat) = fun _ => 0 := funext fun a => by fin_cases a <;> rfl

/-- A store through the whole-block rectangle, made LAST, leaves the block reading as its payload: the
    rectangle holds every index, so neither the contents before nor the earlier stores show through. -/
theorem read_writes_whole_last {S : Shape} {e : EltTy} {sp : Space} (v : View sig .tc sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y =>
      ⟨_, List.mem_cons.mpr (Or.inl rfl), View.mem_set_unit_zero h inb y⟩).trans
    (View.canon_cons_unit_zero h inb w L)

/-! ## The body on whole staging memrefs, case by case

Both cases end with ONE store of `k0_pay2 v x` through the whole-block rectangle, where `x` is the matrix
block as loaded and `v` the output block as loaded just before. That store covers the block, so the block
then reads as its payload (`read_writes_whole_last`). The cases differ in `v`: at a first column tile the
body has just stored the zero block `k0_pay1` through the same rectangle, and the load reads it back;
elsewhere nothing precedes the load, which reads what the memref was handed over with. -/

set_option maxHeartbeats 1000000 in
/-- A first column tile (`hc`): the output block, whatever it held, ends at the lane sums added to zero; the
    matrix block is only read. -/
theorem run_first (c : Dev nD) (i : grid0.Coords) (a2 : Memref sig .tc .vmem S1024x2048 .f32) (h2 : a2.IsWhole)
    (a3 : Memref sig .tc .vmem S1024x1 .f32) (h3 : a3.IsWhole) (hc : cond0_0 i) (x : Vec F S1024x2048 .f32)
    (E : Set ℕ) (K : PUnit → sProp 𝕄) :
    iprop(owns (c : Thread nD τ) a2 fullShare x ∗ (∃ d, owns (c : Thread nD τ) a3 fullShare d)
        ∗ (iprop(owns (c : Thread nD τ) a2 fullShare x
              ∗ owns (c : Thread nD τ) a3 fullShare (k0_pay2 (k0_pay1 (F := F)) x)) -∗ K ⟨⟩))
      ⊢ wp frame (wpE (defs₀ (F := F)) Variants.none c none) E (cc0__degree_kernel i a2 h2 a3 h3) K := by
  simp only [cc0__degree_kernel_eq_skeleton]; unfold cc0__degree_kernel_skel
  unfold owns
  iintro ⟨⟨%f2, %hf2, H2⟩, ⟨%d3, %f3, -, H3⟩, Hk⟩
  obtain rfl := h2.eq_unread hf2
  sl_exec (disch := first | exact hc)
  sl_step
  iapply Hk
  isplitl [H2]
  · iexists _; isplitr
    · ipureintro; exact h2.read_unread _
    · iexact H2
  iexists _; isplitr
  swap
  · iexact H3
  ipureintro
  -- the last store's payload, its first operand the reload of the zero block just stored
  sl_unfold_words
  refine (read_writes_whole_last _ _ offs_zero _ _ _).trans ?_
  rw [View.readCov_unit_zero (S := S1024x1) _ offs_zero]
  simp only [View.readAt_eq_ld, h2.read_unread, View.ld_unit_zero (S := S1024x2048) offs_zero]

set_option maxHeartbeats 1000000 in
/-- A later column tile (`hc`): the output block, handed over at `v`, ends at the lane sums added to `v`; the
    matrix block is only read. -/
theorem run_next (c : Dev nD) (i : grid0.Coords) (a2 : Memref sig .tc .vmem S1024x2048 .f32) (h2 : a2.IsWhole)
    (a3 : Memref sig .tc .vmem S1024x1 .f32) (h3 : a3.IsWhole) (hc : ¬cond0_0 i) (x : Vec F S1024x2048 .f32)
    (v : Vec F S1024x1 .f32) (E : Set ℕ) (K : PUnit → sProp 𝕄) :
    iprop(owns (c : Thread nD τ) a2 fullShare x ∗ owns (c : Thread nD τ) a3 fullShare v
        ∗ (iprop(owns (c : Thread nD τ) a2 fullShare x
              ∗ owns (c : Thread nD τ) a3 fullShare (k0_pay2 v x)) -∗ K ⟨⟩))
      ⊢ wp frame (wpE (defs₀ (F := F)) Variants.none c none) E (cc0__degree_kernel i a2 h2 a3 h3) K := by
  simp only [cc0__degree_kernel_eq_skeleton]; unfold cc0__degree_kernel_skel
  unfold owns
  iintro ⟨⟨%f2, %hf2, H2⟩, ⟨%f3, %hf3, H3⟩, Hk⟩
  obtain rfl := h2.eq_unread hf2
  obtain rfl := h3.eq_unread hf3
  sl_exec (disch := first | exact hc)
  sl_step
  iapply Hk
  isplitl [H2]
  · iexists _; isplitr
    · ipureintro; exact h2.read_unread _
    · iexact H2
  iexists _; isplitr
  swap
  · iexact H3
  ipureintro
  -- the one store's payload, its operands the two memrefs' contents as handed over
  sl_unfold_words
  refine (read_writes_whole_last _ _ offs_zero _ _ _).trans ?_
  simp only [View.readAt_eq_ld, h2.read_unread, h3.read_unread, View.ld_unit_zero (S := S1024x2048) offs_zero,
    View.ld_unit_zero (S := S1024x1) offs_zero]

/-! ## What the body is handed at a point -/

/-- The matrix window's current staging buffer holds the point's matrix block, whether or not the point fetched
    it: the window is an input, live and uncut everywhere, and the body leaves its block in place, so an
    unfetched buffer still holds the block of the point before, which is this point's (the block index has not
    moved). -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0]; unfold Dat.blockOf iblk0; rw [A_eq0]; try rfl
  refine ((dat0 V c).before_in_eq_fetched 0 rfl (fun _ => rfl) (fun _ _ _ => rfl) hkeep t d).trans ?_
  unfold Dat.fetched Dat.blockOf iblk0; rw [A_eq0]; try rfl

/-- Off the first column tile the output window's current staging buffer holds what the point before left: the
    point is not the first, and the point before, whose column tile is not the last, did not write the block
    back; the window is an output, live and uncut everywhere. -/
theorem before0_1_next (c : Dev nD) (t : Fin cfg0.N) (h0 : ¬t.val % 4 = 0) (d) :
    (dat0 V c).before 1 t d = degAt V c (t.val - 1) (Nat.lt_of_le_of_lt (Nat.sub_le _ _) t.isLt) := by
  have ht : t.val ≠ 0 := fun e => h0 (by rw [e])
  have hfl : (cfg0.win 1).flush ⟨t.val - 1, Nat.lt_of_le_of_lt (Nat.sub_le _ _) t.isLt⟩ = false := by
    rw [Bool.eq_false_iff]; intro h
    have h3 := (flush0_1 _).mp h
    dsimp only at h3
    omega
  exact ((dat0 V c).before_out_kept 1 rfl t ht hfl (fun _ => rfl) (fun _ _ => rfl) d).trans (after0_1 V c _)

/-! ## The body at a generic point -/

set_option maxHeartbeats 800000 in
/-- The body at point `t`, the windows one by one. The matrix buffer holds its block (`before0_0`). At a first
    column tile the output buffer's contents do not matter and the body leaves `degAt`'s first form
    (`run_first`); elsewhere the buffer holds `degAt` of the point before (`before0_1_next`) and the body leaves
    `degAt`'s next form (`run_next`). The invariant and what the core owes are the same at both ends and pass
    through untouched. -/
theorem sound_body (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t))) := by
  have hΦ : (dat0 V c).Φ t.succ = (dat0 V c).Φ t.castSucc := rfl
  have hO : (dat0 V c).owesAt () t.succ = (dat0 V c).owesAt () t.castSucc := rfl
  rw [hΦ, hO, after0_0, after0_1]
  simp only [before0_0 V]
  by_cases h0 : t.val % 4 = 0
  · rw [degAt_first V c t h0]
    iintro ⟨HΦ, HO, ⟨%d0, H0⟩, ⟨%d1, H1⟩⟩
    iapply (run_first c (grid0.coords t) _ _ _ _ ((hcond0_0 t).mpr h0) (iblk0 V c 0 t) Set.univ _)
    isplitl [H0]
    · iexact H0
    isplitl [H1]
    · iexists _; iexact H1
    iintro ⟨H0, H1⟩
    isplitl [HΦ]
    · iexact HΦ
    isplitl [HO]
    · iexact HO
    isplitl [H0]
    · iexact H0
    · iexact H1
  · rw [degAt_next V c t h0]
    simp only [before0_1_next V c t h0]
    iintro ⟨HΦ, HO, ⟨%d0, H0⟩, ⟨%d1, H1⟩⟩
    iapply (run_next c (grid0.coords t) _ _ _ _ (fun h => h0 ((hcond0_0 t).mp h)) (iblk0 V c 0 t) _ Set.univ _)
    isplitl [H0]
    · iexact H0
    isplitl [H1]
    · iexact H1
    iintro ⟨H0, H1⟩
    isplitl [HΦ]
    · iexact HΦ
    isplitl [HO]
    · iexact HO
    isplitl [H0]
    · iexact H0
    · iexact H1

end DegB

open DegB

/-- The library's body obligation for region 0, at every point. -/
theorem body_obligation0 (c : Dev nD) : BodyObligation (dat0 (F := F) V c) (defs₀ (F := F)) Variants.none () Set.univ := fun t => by
  rw [bigSep_W0, bigSep_W0]
  exact sound_body V c t

end Cert.KernelIdeal.Gcn

end
-- ==== Proof.KI.GcnBody.lean ====
/-
  Region 1's body at every grid point: handed its five input blocks, its output block and the scratch
  accumulator, it leaves the accumulator at `accAt` — cleared first when the column tile is the first,
  otherwise added to what the point before left — and, when the column tile is the last, the output
  block at `outAt`; at the other points the output block is handed back untouched.
-/
import proofs.«164056_j47261820125198_1_alg».proof.Proof.KI.Data
import Idealize.ShloMosaic.Lib.Pipeline.Value

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

namespace GcnB

/-! ## The invariant, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1 fullShare (accAt V c n hn) ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1 fullShare (accAt V c (n - 1) (by omega)) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The launch's invariant, its scoped buffers listed: the four staging buffers of the other region, the scratch as a
    memref owned at some contents, and the generator register. -/
theorem PhiA1_elim (c : Dev nD) :
    (Pipeline.ΦA spec1 c : sProp 𝕄) ⊢ iprop(rest1 (F := F) c ∗ (∃ d, owns (c : Thread nD τ) scM1 fullShare d) ∗ (∃ r, prngReg c r)) := by
  unfold Pipeline.ΦA rest1; rw [scopedRest1_eq]; simp only [scM1, owns_whole]
  iintro ⟨⟨H0, H1, H2, H3, HS⟩, Hg⟩
  isplitl [H0 H1 H2 H3]
  · isplitl [H0]; · iexact H0
    isplitl [H1]; · iexact H1
    isplitl [H2]; · iexact H2
    iexact H3
  isplitl [HS]; · iexact HS
  iexact Hg

theorem PhiA1_intro (c : Dev nD) :
    iprop(rest1 (F := F) c ∗ (∃ d, owns (c : Thread nD τ) scM1 fullShare d) ∗ (∃ r, prngReg c r)) ⊢ (Pipeline.ΦA spec1 c : sProp 𝕄) := by
  unfold Pipeline.ΦA rest1; rw [scopedRest1_eq]; simp only [scM1, owns_whole]
  iintro ⟨⟨H0, H1, H2, H3⟩, HS, Hg⟩
  isplitr [Hg]
  · isplitl [H0]; · iexact H0
    isplitl [H1]; · iexact H1
    isplitl [H2]; · iexact H2
    isplitl [H3]; · iexact H3
    iexact HS
  iexact Hg

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last column tile the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## What the body is handed in the inputs' staging buffers -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Reading back a buffer stored whole -/

theorem hz2 : (![0, 0] : Fin 2 → Nat) = fun _ => 0 := funext fun a => by fin_cases a <;> rfl

/-- A buffer whose last store went through the whole-shape rectangle at zero offsets reads that store's payload,
    whatever was stored before and whatever it held. -/
theorem read_writes_unit_zero_cons {sg : RefSig} {κ : Kind} {sp : Space} {S : Shape} {e : EltTy} {Val : EltTy → Type}
    [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-! ## The body's three runs

The column tile decides two branches, so a point is in one of three cases (first and last cannot both hold on a grid of
four column tiles). Each run is stated over any whole staging memrefs and any contents of the inputs. -/

set_option maxHeartbeats 1000000 in
/-- A first column tile that is not the last: the body clears the scratch, adds the block product onto the cleared
    scratch and leaves the output block as it found it. Handed the five input blocks, the output block at `xi5` and
    the scratch at anything, it returns them with the scratch at the product added to zero. -/
theorem run1_A (c : Dev nD) (i : grid1.Coords)
    (arg2 : Memref sig .tc .vmem S1024x2048 .f32) (harg2 : arg2.IsWhole)
    (arg3 : Memref sig .tc .vmem S2048x128 .f32) (harg3 : arg3.IsWhole)
    (arg4 : Memref sig .tc .vmem S2048x1 .f32) (harg4 : arg4.IsWhole)
    (arg5 : Memref sig .tc .vmem S1024x1 .f32) (harg5 : arg5.IsWhole)
    (arg6 : Memref sig .tc .vmem S128x64 .f32) (harg6 : arg6.IsWhole)
    (arg7 : Memref sig .tc .vmem S1024x64 .f32) (harg7 : arg7.IsWhole)
    (arg8 : Memref sig .tc .vmem S1024x128 .f32) (harg8 : arg8.IsWhole)
    (hc0 : cond1_0 i) (hc1 : ¬cond1_1 i)
    (x0 : Vec F S1024x2048 .f32) (x1 : Vec F S2048x128 .f32) (x2 : Vec F S2048x1 .f32) (x3 : Vec F S1024x1 .f32) (x4 : Vec F S128x64 .f32)
    (xi5 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare xi5 ∗ (∃ d, owns (c : Thread nD τ) arg8 fullShare d)
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
              ∗ owns (c : Thread nD τ) arg7 fullShare xi5 ∗ owns (c : Thread nD τ) arg8 fullShare (k1_pay2 x1 x2 x0 (k1_pay1 (F := F)))) -∗ K ⟨⟩))
      ⊢ wp frame (wpE (defs₀ (F := F)) Variants.none c none) E
          (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_writes_unit_zero_cons _ _ hz2]
  sl_unfold_words
  simp only [View.readAt_eq_ld, harg2.read_unread, harg3.read_unread, harg4.read_unread,
    View.ld_unit_zero (S := S1024x2048) hz2, View.ld_unit_zero (S := S2048x128) hz2, View.ld_unit_zero (S := S2048x1) hz2, View.readCov_unit_zero (S := S1024x128) _ hz2]

set_option maxHeartbeats 1000000 in
/-- A column tile that is neither first nor last: the body adds the block product onto the scratch it is handed
    (at `xs`) and leaves the output block as it found it. -/
theorem run1_B (c : Dev nD) (i : grid1.Coords)
    (arg2 : Memref sig .tc .vmem S1024x2048 .f32) (harg2 : arg2.IsWhole)
    (arg3 : Memref sig .tc .vmem S2048x128 .f32) (harg3 : arg3.IsWhole)
    (arg4 : Memref sig .tc .vmem S2048x1 .f32) (harg4 : arg4.IsWhole)
    (arg5 : Memref sig .tc .vmem S1024x1 .f32) (harg5 : arg5.IsWhole)
    (arg6 : Memref sig .tc .vmem S128x64 .f32) (harg6 : arg6.IsWhole)
    (arg7 : Memref sig .tc .vmem S1024x64 .f32) (harg7 : arg7.IsWhole)
    (arg8 : Memref sig .tc .vmem S1024x128 .f32) (harg8 : arg8.IsWhole)
    (hc0 : ¬cond1_0 i) (hc1 : ¬cond1_1 i)
    (x0 : Vec F S1024x2048 .f32) (x1 : Vec F S2048x128 .f32) (x2 : Vec F S2048x1 .f32) (x3 : Vec F S1024x1 .f32) (x4 : Vec F S128x64 .f32)
    (xi5 : Vec F S1024x64 .f32) (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ owns (c : Thread nD τ) arg7 fullShare xi5 ∗ owns (c : Thread nD τ) arg8 fullShare xs
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
              ∗ owns (c : Thread nD τ) arg7 fullShare xi5 ∗ owns (c : Thread nD τ) arg8 fullShare (k1_pay2 x1 x2 x0 xs)) -∗ K ⟨⟩))
      ⊢ wp frame (wpE (defs₀ (F := F)) Variants.none c none) E
          (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS
  ipureintro
  rw [read_writes_unit_zero_cons _ _ hz2]
  simp only [View.readAt_eq_ld, harg2.read_unread, harg3.read_unread, harg4.read_unread,
    View.ld_unit_zero (S := S1024x2048) hz2, View.ld_unit_zero (S := S2048x128) hz2, View.ld_unit_zero (S := S2048x1) hz2, harg8.read_unread, View.ld_unit_zero (S := S1024x128) hz2]

set_option maxHeartbeats 1000000 in
/-- A last column tile that is not the first: the body adds the block product onto the scratch it is handed (at `xs`),
    reads the sum back, scales it row by row, multiplies by the weights, clamps at zero and stores the output block. -/
theorem run1_C (c : Dev nD) (i : grid1.Coords)
    (arg2 : Memref sig .tc .vmem S1024x2048 .f32) (harg2 : arg2.IsWhole)
    (arg3 : Memref sig .tc .vmem S2048x128 .f32) (harg3 : arg3.IsWhole)
    (arg4 : Memref sig .tc .vmem S2048x1 .f32) (harg4 : arg4.IsWhole)
    (arg5 : Memref sig .tc .vmem S1024x1 .f32) (harg5 : arg5.IsWhole)
    (arg6 : Memref sig .tc .vmem S128x64 .f32) (harg6 : arg6.IsWhole)
    (arg7 : Memref sig .tc .vmem S1024x64 .f32) (harg7 : arg7.IsWhole)
    (arg8 : Memref sig .tc .vmem S1024x128 .f32) (harg8 : arg8.IsWhole)
    (hc0 : ¬cond1_0 i) (hc1 : cond1_1 i)
    (x0 : Vec F S1024x2048 .f32) (x1 : Vec F S2048x128 .f32) (x2 : Vec F S2048x1 .f32) (x3 : Vec F S1024x1 .f32) (x4 : Vec F S128x64 .f32)
    (xs : Vec F S1024x128 .f32) (E : Set ℕ) (K : PUnit → sProp 𝕄) :
    iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
          ∗ (∃ d, owns (c : Thread nD τ) arg7 fullShare d) ∗ owns (c : Thread nD τ) arg8 fullShare xs
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4
              ∗ owns (c : Thread nD τ) arg7 fullShare (k1_pay3 (k1_pay2 x1 x2 x0 xs) x3 x4) ∗ owns (c : Thread nD τ) arg8 fullShare (k1_pay2 x1 x2 x0 xs)) -∗ K ⟨⟩))
      ⊢ wp frame (wpE (defs₀ (F := F)) Variants.none c none) E
          (cc1__gcn_kernel i arg2 harg2 arg3 harg3 arg4 harg4 arg5 harg5 arg6 harg6 arg7 harg7 arg8 harg8) K := by
  simp only [cc1__gcn_kernel_eq_skeleton]; unfold cc1__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_writes_unit_zero_cons _ _ hz2]
    sl_unfold_words
    simp only [View.readAt_eq_ld, harg2.read_unread, harg3.read_unread, harg4.read_unread,
    View.ld_unit_zero (S := S1024x2048) hz2, View.ld_unit_zero (S := S2048x128) hz2, View.ld_unit_zero (S := S2048x1) hz2, harg5.read_unread, harg6.read_unread, harg8.read_unread,
      View.ld_unit_zero (S := S1024x1) hz2, View.ld_unit_zero (S := S128x64) hz2, View.ld_unit_zero (S := S1024x128) hz2,
      View.readCov_unit_zero (S := S1024x128) _ hz2]
  iexists _; isplitr
  swap; · iexact HS
  ipureintro
  sl_unfold_words
  rw [read_writes_unit_zero_cons _ _ hz2]
  simp only [View.readAt_eq_ld, harg2.read_unread, harg3.read_unread, harg4.read_unread,
    View.ld_unit_zero (S := S1024x2048) hz2, View.ld_unit_zero (S := S2048x128) hz2, View.ld_unit_zero (S := S2048x1) hz2, harg8.read_unread, View.ld_unit_zero (S := S1024x128) hz2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves1_0 (c : Dev nD) (t : Fin cfg1.N) :
    (dat1 V c).leavesExact 0 t = owns (c : Thread nD τ) (win1_0.stage (cfg1.slots t 0)) fullShare (iblk1 V c 0 t) := by
  unfold Dat.leavesExact; rw [liveAt1_0 t, after1_0]
theorem leaves1_1 (c : Dev nD) (t : Fin cfg1.N) :
    (dat1 V c).leavesExact 1 t = owns (c : Thread nD τ) (win1_1.stage (cfg1.slots t 1)) fullShare (iblk1 V c 1 t) := by
  unfold Dat.leavesExact; rw [liveAt1_1 t, after1_1]
theorem leaves1_2 (c : Dev nD) (t : Fin cfg1.N) :
    (dat1 V c).leavesExact 2 t = owns (c : Thread nD τ) (win1_2.stage (cfg1.slots t 2)) fullShare (iblk1 V c 2 t) := by
  unfold Dat.leavesExact; rw [liveAt1_2 t, after1_2]
theorem leaves1_3 (c : Dev nD) (t : Fin cfg1.N) :
    (dat1 V c).leavesExact 3 t = owns (c : Thread nD τ) (win1_3.stage (cfg1.slots t 3)) fullShare (iblk1 V c 3 t) := by
  unfold Dat.leavesExact; rw [liveAt1_3 t, after1_3]
theorem leaves1_4 (c : Dev nD) (t : Fin cfg1.N) :
    (dat1 V c).leavesExact 4 t = owns (c : Thread nD τ) (win1_4.stage (cfg1.slots t 4)) fullShare (iblk1 V c 4 t) := by
  unfold Dat.leavesExact; rw [liveAt1_4 t, after1_4]
/-- At a last column tile the output window is left at the stored block. -/
theorem leaves1_5_live (c : Dev nD) (t : Fin cfg1.N) (hc1 : cond1_1 (grid1.coords t)) :
    (dat1 V c).leavesExact 5 t = owns (c : Thread nD τ) (win1_5.stage (cfg1.slots t 5)) fullShare (outAt V c t.val t.isLt) := by
  unfold Dat.leavesExact; rw [liveAt1_5 t hc1, after1_5]

set_option maxHeartbeats 4800000 in
/-- The body at any point. The inputs' buffers hold their blocks; the column tile says which of the three runs
    applies; the invariant hands the run the scratch (at anything before the first point, at what the point before
    left afterwards) and takes it back at this point's accumulator; the output window is handed back untouched
    away from a last column tile and left at the stored block at one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 5 t (idleAt1_5 t hc1) (noFlush1_5 t hc1)]
    rw [accAt_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_elim c) $$ HΦ
      icases HΦ' with ⟨Hr, HS, Hg⟩
      iapply (run1_A c (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [PhiS1_castSucc V c t, PhiS1_pos V c _ _ hz]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_A c (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
  · have hc0 : ¬cond1_0 (grid1.coords t) := fun h => h0 ((hcond1_0 t).mp h)
    have hz : t.val ≠ 0 := fun h => h0 (by rw [h])
    rw [accAt_next V c t h0]
    rw [PhiS1_castSucc V c t, PhiS1_pos V c _ _ hz]
    by_cases h1 : t.val % 4 = 3
    · have hc1 : cond1_1 (grid1.coords t) := (hcond1_1 t).mpr h1
      rw [leaves1_5_live V c t hc1]
      unfold outAt
      rw [accAt_next V c t h0]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ hc0 hc1
        (iblk1 V c 0 t) (iblk1 V c 1 t) (iblk1 V c 2 t) (iblk1 V c 3 t) (iblk1 V c 4 t)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨Hr, HS, Hg⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ hc0 hc1
        (iblk1 V c 0 t) (iblk1 V c 1 t) (iblk1 V c 2 t) (iblk1 V c 3 t) (iblk1 V c 4 t) ((dat1 V c).before 5 t d5)
        (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- After any point but the first the invariant gives the launch's back: the scratch's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht]
  iintro ⟨Hr, HS, Hg⟩
  iapply (PhiA1_intro c)
  isplitl [Hr]; · iexact Hr
  isplitl [HS]; · iexists _; iexact HS
  iexact Hg

end GcnB

open GcnB

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  rw [show (dat1 V c).Φ 0 = PhiS1 V c 0 (Nat.zero_le _) from rfl, PhiS1_zero V c 0 _ rfl]

/-- After the last point the invariant gives everything scoped back at some contents. -/
theorem hout1 (c : Dev nD) : (dat1 (F := F) V c).Φ (Fin.last cfg1.N) ⊢ (Pipeline.ΦA spec1 c : sProp 𝕄) :=
  Phi_out1 V c _ (by rw [Fin.val_last]; have : cfg1.N = 32 := N_1; omega)

end Cert.KernelIdeal.Gcn

end
-- ==== Proof.KI.Launch.lean ====
/-
  The run of @main: region 0, the host stretch, region 1, each entered from what the item before it
  left; every weakly fair execution ends with every unscoped buffer at the last boundary's contents.
-/
import proofs.«164056_j47261820125198_1_alg».proof.Proof.KI.Bounds
import proofs.«164056_j47261820125198_1_alg».proof.Proof.KI.DegreeBody
import proofs.«164056_j47261820125198_1_alg».proof.Proof.KI.GcnBody

set_option maxRecDepth 16384

noncomputable section

namespace Cert.KernelIdeal.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Lnch

/-! ## The host stretch: nothing allocated, four arrays written -/

/-- No operation of the host stretch allocates a buffer. -/
theorem host_fresh : (hostOps1 : List (HloOp τ sig (Elt F))).Forall fun op => op.fresh = ∅ := by
  simp only [List.Forall]; repeat' constructor

/-- The arrays the host stretch writes: the square root, the constant one, its broadcast, the quotient. -/
abbrev hostW : List (Ref sig .tc) := [main_v1, main_cst, main_v2, main_v3]

theorem host_writes : (hostOps1 : List (HloOp τ sig (Elt F))).Forall fun op =>
    op.writes ⊆ (hostW.map (Proc.devRef (τ := τ) .tc)).toFinset := by
  simp only [List.Forall, StableHlo.nullary_writes, StableHlo.unary_writes, StableHlo.binary_writes,
    Finset.singleton_subset_iff, List.mem_toFinset]
  exact ⟨List.mem_map_of_mem (by decide), List.mem_map_of_mem (by decide), List.mem_map_of_mem (by decide),
    List.mem_map_of_mem (by decide)⟩

/-! ## Each boundary's contents off the arrays its item writes -/

theorem W1_of (c : Dev nD) (r : Ref sig .tc) (h : r ≠ main_v0) :
    W1 m c (Proc.devRef .tc r) = W0 m c (Proc.devRef .tc r) :=
  Function.update_of_ne (StableHlo.devRef_ne_of_ne h) _ _
theorem W1_v0 (c : Dev nD) : W1 m c (Proc.devRef .tc main_v0) = deg m c := Function.update_self _ _ _
theorem W2_of (c : Dev nD) (r : Ref sig .tc) (h : r ∉ hostW) :
    W2 m c (Proc.devRef .tc r) = W1 m c (Proc.devRef .tc r) :=
  StableHlo.after_of_writes_sub hostOps1 _ host_writes h
theorem W3_of (c : Dev nD) (r : Ref sig .tc) (h : r ≠ main_v4) :
    W3 m c (Proc.devRef .tc r) = W2 m c (Proc.devRef .tc r) :=
  Function.update_of_ne (StableHlo.devRef_ne_of_ne h) _ _

/-! ## The proof data of both regions, and what rides beside the buffers -/

/-- Neither region prefetches a table. -/
abbrev adm : (p : Fin 2) → (pcfgs (F := F) p).Adm := fun p => (cfgs p).toPCfg_adm

/-- Region 0's data at the launch contents, region 1's at the contents after the host stretch. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state, and nothing owed. -/
abbrev R (c : Dev nD) : sProp 𝕄 :=
  iprop((∃ r, prngReg c r) ∗ ∃ W, owes (c : Thread nD τ) (0 : CellTallies nD τ sig Unit) W)

/-- The last thread state without the dues: every unscoped buffer at `W3`, the generator register at some state. -/
abbrev Tₙ (c : Dev nD) : sProp 𝕄 :=
  iprop(StableHlo.held (c : Thread nD τ) (Pipeline.ucRefs τ sig) (W3 m c) ∗ ∃ r, prngReg c r)

/-- The host stretch from the contents region 0 leaves: it ends at `W2` by definition. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp host_fresh) op h) (W1 m) R

/-! ## Region 0: the row sums -/

/-- At region 0's exit the matrix is as entered (an input array is never written) and the row-sum array is `deg`. -/
theorem hF0 (c : Dev nD) : ∀ w : Fin cfg0.W,
    (dat0 (V0 m) c).arrAt w cfg0.N = (fun b : Ref sig .tc => W1 m c b) (Pipeline.arrRef spec0 w)
  | ⟨0, _⟩ => ((dat0 (V0 m) c).arrAt_in 0 rfl _).trans ((A_eq0 (V0 m) c 0).trans (W1_of m c main_arg1 (by decide)).symm)
  | ⟨1, _⟩ => (W1_v0 m c).symm

/-- Off region 0's arrays nothing has changed. -/
theorem hrest0 (c : Dev nD) : ∀ b : Ref sig .tc, b ∉ Finset.univ.image (Pipeline.arrRef spec0) →
    (fun b : Ref sig .tc => W1 m c b) b = V0 m c b :=
  fun b hb => W1_of m c b fun e => hb (e ▸ Finset.mem_image.mpr ⟨1, Finset.mem_univ _, rfl⟩)

set_option backward.isDefEq.respectTransparency.types false in
/-- Region 0 over the thread state: entered from every unscoped buffer at the launch contents, left with the
    row-sum array at `deg`. Its two arrays are distinct, so they split out of the unscoped buffers and go back
    at the exit contents; the generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the normalised product. Two of its windows are on one array -/

/-- Every unscoped buffer of the core, listed: region 1's five arrays, then the four it does not touch. -/
theorem unscopedBufs_list (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_arg1) ↦{fullShare} V main_arg1) ∗ (((c : Thread nD τ).loc main_arg0) ↦{fullShare} V main_arg0)
        ∗ (((c : Thread nD τ).loc main_v3) ↦{fullShare} V main_v3) ∗ (((c : Thread nD τ).loc main_arg2) ↦{fullShare} V main_arg2)
        ∗ (((c : Thread nD τ).loc main_v4) ↦{fullShare} V main_v4) ∗ (((c : Thread nD τ).loc main_v0) ↦{fullShare} V main_v0)
        ∗ (((c : Thread nD τ).loc main_v1) ↦{fullShare} V main_v1) ∗ (((c : Thread nD τ).loc main_cst) ↦{fullShare} V main_cst)
        ∗ (((c : Thread nD τ).loc main_v2) ↦{fullShare} V main_v2)) := by
  unfold unscopedBufs
  exact bigSep_eq_bigSepL_of_eq [main_arg1, main_arg0, main_v3, main_arg2, main_v4, main_v0, main_v1, main_cst, main_v2]
    (by decide) (by decide) _

/-- Region 1's arrays window by window: the matrix, the features, the factor column at its left half for the
    column-side window and at its right half for the row-side one, the weights, the result. -/
theorem arrays1_list (V : (c : Dev nD) → (b : Ref sig .tc) → Buf (Elt F) ((c : Thread nD τ).loc b)) (c : Dev nD)
    (Fw : (w : Fin cfg1.W) → Buf (Elt F) ((cfg1.win w).arr.view.loc (c : Thread nD τ)))
    {f0 : Buf (Elt F) ((c : Thread nD τ).loc main_arg1)} {f1 : Buf (Elt F) ((c : Thread nD τ).loc main_arg0)}
    {f2 f3 : Buf (Elt F) ((c : Thread nD τ).loc main_v3)} {f4 : Buf (Elt F) ((c : Thread nD τ).loc main_arg2)}
    {f5 : Buf (Elt F) ((c : Thread nD τ).loc main_v4)}
    (h0 : Fw 0 = f0) (h1 : Fw 1 = f1) (h2 : Fw 2 = f2) (h3 : Fw 3 = f3) (h4 : Fw 4 = f4) (h5 : Fw 5 = f5) :
    ((dat1 V c).arrays Fw : sProp 𝕄)
      = iprop((((c : Thread nD τ).loc main_arg1) ↦{fullShare} f0) ∗ (((c : Thread nD τ).loc main_arg0) ↦{fullShare} f1)
        ∗ (((c : Thread nD τ).loc main_v3) ↦{fullShare.left} f2) ∗ (((c : Thread nD τ).loc main_v3) ↦{fullShare.right} f3)
        ∗ (((c : Thread nD τ).loc main_arg2) ↦{fullShare} f4) ∗ (((c : Thread nD τ).loc main_v4) ↦{fullShare} f5)) := by
  subst h0 h1 h2 h3 h4 h5
  unfold Dat.arrays
  rw [bigSep_W1]
  rw [show (cfg1.win 0).arr.view.set = Finset.univ from (arr_whole1 0).set_eq_univ,
    show (cfg1.win 1).arr.view.set = Finset.univ from (arr_whole1 1).set_eq_univ,
    show (cfg1.win 2).arr.view.set = Finset.univ from (arr_whole1 2).set_eq_univ,
    show (cfg1.win 4).arr.view.set = Finset.univ from (arr_whole1 4).set_eq_univ,
    show (cfg1.win 5).arr.view.set = Finset.univ from (arr_whole1 5).set_eq_univ]
  rfl

/-- ENTRY. Every unscoped buffer at the contents after the host stretch is region 1's arrays at those contents —
    the factor column's full share split into its two halves, one per window on it — beside the four buffers
    the region does not touch. -/
theorem entry1 (c : Dev nD) :
    (StableHlo.held (c : Thread nD τ) (Pipeline.ucRefs τ sig) (W2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  rw [← Pipeline.unscopedBufs_held (Ix := Unit) (Name := ℕ) (U := UR sig nD τ) (Lvl := ℕ) c (W2 m c),
    unscopedBufs_list,
    arrays1_list (V2 m) c (fun w => (dat1 (V2 m) c).arrAt w 0) (f0 := V2 m c main_arg1) (f1 := V2 m c main_arg0) (f2 := V2 m c main_v3) (f3 := V2 m c main_v3)
      (f4 := V2 m c main_arg2) (f5 := V2 m c main_v4) rfl rfl rfl rfl rfl rfl,
    unscopedRest1_eq]
  iintro ⟨H1, H0, H3, H2, H4, Hv0, Hv1, Hc, Hv2⟩
  ihave H3 := (pointsTo_share (PosShare.mem_left_op_right fullShare)).1 $$ H3
  icases H3 with ⟨H3l, H3r⟩
  isplitl [H1 H0 H3l H3r H2 H4]
  · isplitl [H1]; · iexact H1
    isplitl [H0]; · iexact H0
    isplitl [H3l]; · iexact H3l
    isplitl [H3r]; · iexact H3r
    isplitl [H2]; · iexact H2
    iexact H4
  isplitl [Hv0]; · iexact Hv0
  isplitl [Hv1]; · iexact Hv1
  isplitl [Hc]; · iexact Hc
  iexact Hv2

theorem W3_v4 (c : Dev nD) : W3 m c (Proc.devRef .tc main_v4) = res m c := Function.update_self _ _ _

/-- At region 1's exit every input array is as entered (an input array is never written), which no later item
    changes, and the result array is `res`. -/
theorem hF1 (c : Dev nD) : ∀ w : Fin cfg1.W,
    (dat1 (V2 m) c).arrAt w cfg1.N = W3 m c (Proc.devRef .tc (Pipeline.arrRef spec1 w))
  | ⟨0, _⟩ => ((dat1 (V2 m) c).arrAt_in 0 rfl _).trans ((A_eq1 (V2 m) c 0).trans (W3_of m c main_arg1 (by decide)).symm)
  | ⟨1, _⟩ => ((dat1 (V2 m) c).arrAt_in 1 rfl _).trans ((A_eq1 (V2 m) c 1).trans (W3_of m c main_arg0 (by decide)).symm)
  | ⟨2, _⟩ => ((dat1 (V2 m) c).arrAt_in 2 rfl _).trans ((A_eq1 (V2 m) c 2).trans (W3_of m c main_v3 (by decide)).symm)
  | ⟨3, _⟩ => ((dat1 (V2 m) c).arrAt_in 3 rfl _).trans ((A_eq1 (V2 m) c 3).trans (W3_of m c main_v3 (by decide)).symm)
  | ⟨4, _⟩ => ((dat1 (V2 m) c).arrAt_in 4 rfl _).trans ((A_eq1 (V2 m) c 4).trans (W3_of m c main_arg2 (by decide)).symm)
  | ⟨5, _⟩ => (W3_v4 m c).symm

/-- EXIT. Region 1's arrays at what its write-backs leave — the two halves of the factor column, both at the
    contents the region entered with, joined back into the full share — beside the four buffers it did not
    touch are every unscoped buffer at `W3`. -/
theorem exit1 (c : Dev nD) :
    iprop((dat1 (V2 m) c).arrays ((dat1 (V2 m) c).arrAt · cfg1.N)
        ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  rw [← Pipeline.unscopedBufs_held (Ix := Unit) (Name := ℕ) (U := UR sig nD τ) (Lvl := ℕ) c (W3 m c),
    unscopedBufs_list,
    arrays1_list (V2 m) c (fun w => (dat1 (V2 m) c).arrAt w cfg1.N) (hF1 m c 0) (hF1 m c 1) (hF1 m c 2) (hF1 m c 3) (hF1 m c 4) (hF1 m c 5),
    unscopedRest1_eq,
    show V2 m c main_v0 = W3 m c (Proc.devRef .tc main_v0) from (W3_of m c main_v0 (by decide)).symm,
    show V2 m c main_v1 = W3 m c (Proc.devRef .tc main_v1) from (W3_of m c main_v1 (by decide)).symm,
    show V2 m c main_cst = W3 m c (Proc.devRef .tc main_cst) from (W3_of m c main_cst (by decide)).symm,
    show V2 m c main_v2 = W3 m c (Proc.devRef .tc main_v2) from (W3_of m c main_v2 (by decide)).symm]
  iintro ⟨⟨H1, H0, H3l, H3r, H2, H4⟩, Hv0, Hv1, Hc, Hv2⟩
  ihave H3 := (pointsTo_share (PosShare.mem_left_op_right fullShare)).2 $$ [H3l H3r]
  · isplitl [H3l] <;> iassumption
  isplitl [H1]; · iexact H1
  isplitl [H0]; · iexact H0
  isplitl [H3]; · iexact H3
  isplitl [H2]; · iexact H2
  isplitl [H4]; · iexact H4
  isplitl [Hv0]; · iexact Hv0
  isplitl [Hv1]; · iexact Hv1
  isplitl [Hc]; · iexact Hc
  iexact Hv2

set_option backward.isDefEq.respectTransparency.types false in
/-- Region 1 over the thread state: entered from every unscoped buffer at the contents after the host stretch,
    left with the result array at `res`. The generator register goes into the invariant before the first point and
    comes out after the last; nothing is owed. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (V2 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last (Pipeline.pin (pcfgs (F := F)) adm 1).N) ⊢ (Pipeline.ΦA spec1 c : sProp 𝕄) := hout1 (V2 m) c
    unfold Pipeline.ΦA at h
    iintro Hi
    ihave H := h $$ Hi
    icases H with ⟨Hr, Hp⟩
    isplitl [Hp]; · iexact Hp
    isplitr; · iempintro
    iexact Hr
  hexit c := by
    have hjoin := exit1 m c
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as its three items, and the launch -/

/-- @main's items in order: region 0, the host stretch, region 1. -/
abbrev segs : List (Pipeline.Seg (pcfgs (F := F)) adm (pdats m) () defs₀ 𝒱₀ L lv) :=
  [ .region (reg0 m), .host (hseg m), .region (reg1 m) ]

/-- @main is the run of those items. -/
theorem main_run (c : Dev nD) : main (F := F) c = Pipeline.Seg.run (segs m) := (main_chain c).trans (by chain_rfl)

end Lnch

open Lnch

set_option backward.isDefEq.respectTransparency.types false in
/-- Every weakly fair execution of @main from `m` with zero counters terminates, nothing faulting, and the
    final memory holds every unscoped buffer at `W3`: the launch contents, but the row-sum array at `deg`,
    the host stretch's four results, and the result array at `res`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: each ends as launched. -/
theorem W3_main_arg0 (c : Dev nD) : W3 m c (Proc.devRef .tc main_arg0) = m ((c : Thread nD τ).loc main_arg0) :=
  (W3_of m c main_arg0 (by decide)).trans <| (W2_of m c main_arg0 (by decide)).trans <| (W1_of m c main_arg0 (by decide)).trans rfl
theorem W3_main_arg1 (c : Dev nD) : W3 m c (Proc.devRef .tc main_arg1) = m ((c : Thread nD τ).loc main_arg1) :=
  (W3_of m c main_arg1 (by decide)).trans <| (W2_of m c main_arg1 (by decide)).trans <| (W1_of m c main_arg1 (by decide)).trans rfl
theorem W3_main_arg2 (c : Dev nD) : W3 m c (Proc.devRef .tc main_arg2) = m ((c : Thread nD τ).loc main_arg2) :=
  (W3_of m c main_arg2 (by decide)).trans <| (W2_of m c main_arg2 (by decide)).trans <| (W1_of m c main_arg2 (by decide)).trans rfl
/-- The result array ends at `res`. -/
theorem W3_main_v4 (c : Dev nD) : W3 m c (Proc.devRef .tc main_v4) = res m c :=
  Function.update_self _ _ _

end Cert.KernelIdeal.Gcn

end
-- ==== Proof.KI.Pay.lean ====
/-
  The bodies' arithmetic read at an index, on the extended reals (a change of float format is the identity,
  a matrix product onto a zero accumulator and a lane sum from zero are plain sums).
  Region 0: a cleared block is zero; an update adds a row's 2048 lane entries to the running entry.
  Region 1: a cleared accumulator is zero; an update adds Σ_k a p k * (x k q * dk k) to entry (p, q);
  the finished block is max (Σ_c (acc p c * di p) * w c o) 0.
-/
import proofs.«164056_j47261820125198_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## Layout operations on a column, read at an index -/

/-- A vector `[a]` viewed as the column `[a, 1]` reads, at `(i, u)`, the vector at `i`: both have row-major
    position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied across `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## Region 0: the lane sum -/

/-- The sum over the 2048 lanes of a `[1024, 2048]` block, started from the zero word, is at row `p` the plain sum
    of the row's entries. -/
theorem laneSum_apply (src : FVec Ideal S1024x2048 .f32) (hφ : FKind.Formats .f32)
    (hacc : (0x00000000#32 : BitVec 32) = FKind.add.neutral .f32 hφ) (p : Fin 1024) :
    multiReduction (F := Ideal) .add [1] S1024 src 0x00000000#32 Facts₀.reduces_S1024x2048_S1024 hφ hacc (ix1 p)
      = ∑ j : Fin 2048, src (ix2 p j) := by
  refine (Ideal.multiReduction_add_single src 0x00000000#32 Facts₀.reduces_S1024x2048_S1024 hφ hacc (ix1 p)).trans ?_
  refine Finset.sum_congr rfl fun k _ => congrArg src ?_
  funext a
  refine Fin.ext ?_
  match a with
  | ⟨0, _⟩ => rfl
  | ⟨1, _⟩ => rfl

/-! ## Region 1: the two products

Each product contracts the left operand's axis 1 with the right operand's axis 0 and has no batch axis, so at output
index `(p, q)` and contraction coordinate `k` the operands are read at `(p, k)` and `(k, q)`. The four axis facts are
kept apart, each at a literal axis, and the contraction index set is re-indexed through its one coordinate. -/

theorem lhs_upd_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_upd_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_upd_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_upd_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The update's product onto the zero accumulator: the plain contraction over the block's 2048 columns. -/
theorem upd_apply (l : FVec Ideal S1024x2048 .bf16) (r : FVec Ideal S2048x128 .bf16) (p : Fin 1024) (q : Fin 128) :
    matmul dot_S1024x2048_S2048x128_S1024x128_1_0_0_1_n_n none l r (constant (F := Ideal) S1024x128 .f32 0x00000000#32) (ix2 p q)
      = ∑ k : Fin 2048, l (ix2 p k) * r (ix2 k q) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhs_upd_0 _ _
    | ⟨1, _⟩ => exact (lhs_upd_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhs_upd_0 _ _).trans hk
    | ⟨1, _⟩ => exact rhs_upd_1 _ _)
  rw [el, er]

theorem lhs_fin_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_fin_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_fin_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_fin_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- The finishing product onto the zero accumulator: the plain contraction over the 128 feature columns. -/
theorem fin_apply (l : FVec Ideal S1024x128 .bf16) (r : FVec Ideal S128x64 .bf16) (p : Fin 1024) (q : Fin 64) :
    matmul dot_S1024x128_S128x64_S1024x64_1_0_0_1_n_n none l r (constant (F := Ideal) S1024x64 .f32 0x00000000#32) (ix2 p q)
      = ∑ k : Fin 128, l (ix2 p k) * r (ix2 k q) := by
  simp only [matmul]
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 p q) ((contrEquiv1 dot_S1024x128_S128x64_S1024x64_1_0_0_1_n_n 128 rfl rfl).symm k) = ix2 p k := funext fun a => Fin.ext (by
    match a with
    | ⟨0, _⟩ => exact lhs_fin_0 _ _
    | ⟨1, _⟩ => exact (lhs_fin_1 _ _).trans hk)
  have er : dot_S1024x128_S128x64_S1024x64_1_0_0_1_n_n.rhsIdx (ix2 p q) ((contrEquiv1 dot_S1024x128_S128x64_S1024x64_1_0_0_1_n_n 128 rfl rfl).symm k) = ix2 k q := funext fun a => Fin.ext (by
    match a with
    | ⟨0, _⟩ => exact (rhs_fin_0 _ _).trans hk
    | ⟨1, _⟩ => exact rhs_fin_1 _ _)
  rw [el, er]

/-! ## The payloads -/

/-- Region 0's cleared block. -/
theorem k0_pay1_apply (j : S1024x1.Idx) : k0_pay1 (F := Ideal) j = 0 := by
  show Ideal.ofBits .f32 0x00000000#32 = 0
  exact Ideal.ofBits_zero_f32

/-- Region 0's update: the running entry plus the row's lane sum. -/
theorem k0_pay2_apply (acc : FVec Ideal S1024x1 .f32) (a : FVec Ideal S1024x2048 .f32) (p : Fin 1024) :
    k0_pay2 (F := Ideal) acc a (ix2 p 0) = acc (ix2 p 0) + ∑ j : Fin 2048, a (ix2 p j) := by
  unfold Gen.k0_pay2
  simp only [addf_apply]
  rw [shapeCast_self, shapeCast_a_a1_apply]
  exact congrArg (acc (ix2 p 0) + ·) (laneSum_apply a _ _ p)

/-- Region 1's cleared accumulator. -/
theorem k1_pay1_apply (j : S1024x128.Idx) : k1_pay1 (F := Ideal) j = 0 := by
  unfold Gen.k1_pay1
  simp only [shapeCast_self]
  show Ideal.ofBits .f32 0x00000000#32 = 0
  exact Ideal.ofBits_zero_f32

/-- Region 1's update: the running entry plus the block product with the row-scaled features. -/
theorem k1_pay2_apply (x : FVec Ideal S2048x128 .f32) (dk : FVec Ideal S2048x1 .f32) (a : FVec Ideal S1024x2048 .f32)
    (acc : FVec Ideal S1024x128 .f32) (p : Fin 1024) (q : Fin 128) :
    k1_pay2 (F := Ideal) x dk a acc (ix2 p q) = acc (ix2 p q) + ∑ k : Fin 2048, a (ix2 p k) * (x (ix2 k q) * dk (ix2 k 0)) := by
  unfold Gen.k1_pay2
  simp only [shapeCast_self, addf_apply]
  rw [upd_apply]
  refine congrArg (acc (ix2 p q) + ·) (Finset.sum_congr rfl fun k _ => ?_)
  rw [truncf_apply, truncf_apply, mulf_apply, broadcastTo_a1_ab_apply]

/-- Region 1's finished block. -/
theorem k1_pay3_apply (acc : FVec Ideal S1024x128 .f32) (di : FVec Ideal S1024x1 .f32) (w : FVec Ideal S128x64 .f32)
    (p : Fin 1024) (o : Fin 64) :
    k1_pay3 (F := Ideal) acc di w (ix2 p o) = max (∑ cc : Fin 128, (acc (ix2 p cc) * di (ix2 p 0)) * w (ix2 cc o)) 0 := by
  unfold Gen.k1_pay3
  simp only [shapeCast_self, maximumf_apply, broadcast_apply]
  rw [fin_apply]
  refine congrArg₂ max (Finset.sum_congr rfl fun k _ => ?_) Ideal.ofBits_zero_f32
  rw [truncf_apply, truncf_apply, mulf_apply, broadcastTo_a1_ab_apply]

end Cert.KernelIdeal.Gcn

end
-- ==== Proof.Spec.lean ====
/-
  The mathematics both programs compute, on the extended reals, and the law that joins them.

  With deg r = Σ_j A r j and d r = 1 / sqrt (deg r):
    the kernel computes     max (Σ_c ((Σ_k A i k * (X k c * d k)) * d i) * W c o) 0,
    the reference computes  max (Σ_c (Σ_k ((d i * A i k) * d k) * X k c) * W c o) 0.
  The two differ by moving the factor d i across the sum over k, which on the extended reals
  needs d i finite: it is, when every entry is finite and every row sum is positive.
-/
import Idealize.ShloMosaic.PureOps.Ideal
import Idealize.ShloMosaic.PureOps.Ideal.Laws
import Idealize.ShloMosaic.Lib.ValueIdx
import Mathlib.Data.EReal.Basic
import Mathlib.Analysis.Real.Sqrt
import Mathlib.Algebra.BigOperators.Ring.Finset

noncomputable section

namespace Cert.GcnSpec

open Idealize.ShloMosaic

variable (A : Fin 8192 → Fin 8192 → EReal) (X : Fin 8192 → Fin 128 → EReal) (W : Fin 128 → Fin 64 → EReal)

/-- Every entry is a real number. -/
def Finite2 {a b : Nat} (M : Fin a → Fin b → EReal) : Prop := ∀ i j, M i j ≠ ⊤ ∧ M i j ≠ ⊥

/-- The row sums. -/
def deg (r : Fin 8192) : EReal := ∑ j : Fin 8192, A r j

/-- The reciprocal square root of a row sum, as both programs spell it: one over the square root. -/
def dinv (r : Fin 8192) : EReal := Ideal.div 1 (Ideal.sqrt (deg A r))

/-- The kernel's arrangement over ANY factor column `D`: what region 1 computes from the arrays it is entered with. -/
def kerForm (D : Fin 8192 → EReal) (i : Fin 8192) (o : Fin 64) : EReal :=
  max (∑ c : Fin 128, ((∑ k : Fin 8192, A i k * (X k c * D k)) * D i) * W c o) 0

/-- The kernel's arrangement: the factor column is the reciprocal square roots of the row sums. -/
def kerOut (i : Fin 8192) (o : Fin 64) : EReal := kerForm A X W (dinv A) i o

/-- The reference's arrangement. -/
def refOut (i : Fin 8192) (o : Fin 64) : EReal :=
  max (∑ c : Fin 128, (∑ k : Fin 8192, ((dinv A i * A i k) * dinv A k) * X k c) * W c o) 0

/-! ### From the extended reals to the reals

Every value in play is a real number, so each side is the image of one real expression; the law is
then an identity of finite sums of real products. -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-- A matrix of finite entries is the image of a real matrix. -/
theorem exists_real {m n : Nat} {M : Fin m → Fin n → EReal} (h : Finite2 M) :
    ∃ r : Fin m → Fin n → ℝ, M = fun i j => (r i j : EReal) :=
  ⟨fun i j => (M i j).toReal,
    funext fun i => funext fun j => (EReal.coe_toReal (h i j).1 (h i j).2).symm⟩

/-- The row sum of a real matrix is the real row sum. -/
theorem deg_coe (a : Fin 8192 → Fin 8192 → ℝ) (r : Fin 8192) :
    deg (fun i k => (a i k : EReal)) r = ((∑ j, a r j : ℝ) : EReal) :=
  (coe_sum _ _).symm

/-- Over a positive real row sum `s`, one over the square root is the real `(√s)⁻¹`: the square root of a
    positive real is a nonzero real, so the division is the product with its reciprocal. -/
theorem dinv_coe (a : Fin 8192 → Fin 8192 → ℝ) (r : Fin 8192)
    (h : 0 < deg (fun i k => (a i k : EReal)) r) :
    dinv (fun i k => (a i k : EReal)) r = (((Real.sqrt (∑ j, a r j))⁻¹ : ℝ) : EReal) := by
  rw [deg_coe, EReal.coe_pos] at h
  unfold dinv
  rw [deg_coe, Ideal.sqrt_coe, if_neg (not_lt.mpr h.le), Ideal.div_coe (Real.sqrt_ne_zero'.mpr h), one_mul,
    one_div]

/-- The kernel's arrangement over real arrays is the image of the same arrangement of reals. -/
theorem kerForm_coe (a : Fin 8192 → Fin 8192 → ℝ) (x : Fin 8192 → Fin 128 → ℝ) (w : Fin 128 → Fin 64 → ℝ)
    (d : Fin 8192 → ℝ) (i : Fin 8192) (o : Fin 64) :
    kerForm (fun i k => (a i k : EReal)) (fun k c => (x k c : EReal)) (fun c o => (w c o : EReal))
        (fun k => (d k : EReal)) i o
      = max ((∑ c, ((∑ k, a i k * (x k c * d k)) * d i) * w c o : ℝ) : EReal) 0 := by
  unfold kerForm
  simp only [← EReal.coe_mul, ← coe_sum]

/-- The reference's sum over real arrays is the image of the same sum of reals. -/
theorem refSum_coe (a : Fin 8192 → Fin 8192 → ℝ) (x : Fin 8192 → Fin 128 → ℝ) (w : Fin 128 → Fin 64 → ℝ)
    (d : Fin 8192 → ℝ) (i : Fin 8192) (o : Fin 64) :
    (∑ c, (∑ k, (((d i : EReal) * (a i k : EReal)) * (d k : EReal)) * (x k c : EReal)) * (w c o : EReal))
      = ((∑ c, (∑ k, ((d i * a i k) * d k) * x k c) * w c o : ℝ) : EReal) := by
  simp only [← EReal.coe_mul, ← coe_sum]

/-- The law on the reals: the factor `d i` moves across the sum over `k`, and the products reassociate. -/
theorem real_law (a : Fin 8192 → Fin 8192 → ℝ) (x : Fin 8192 → Fin 128 → ℝ) (w : Fin 128 → Fin 64 → ℝ)
    (d : Fin 8192 → ℝ) (i : Fin 8192) (o : Fin 64) :
    (∑ c, ((∑ k, a i k * (x k c * d k)) * d i) * w c o)
      = ∑ c, (∑ k, ((d i * a i k) * d k) * x k c) * w c o := by
  refine Finset.sum_congr rfl fun c _ => ?_
  congr 1
  rw [Finset.sum_mul]
  refine Finset.sum_congr rfl fun k _ => ?_
  ring

/-- The f32 word of one denotes the real number one. -/
theorem ofBits_one : Ideal.ofBits .f32 0x3F800000#32 = (1 : EReal) := by
  rw [← EReal.coe_one]
  simp [Ideal.ofBits, Ideal.ieee, -EReal.coe_mul]
  norm_num

/-- The f32 zero word denotes zero. -/
theorem ofBits_zero : Ideal.ofBits .f32 0x00000000#32 = (0 : EReal) :=
  Ideal.ofBits_zero_f32

/-- With finite entries and positive row sums the two arrangements are one function. -/
theorem kerOut_eq_refOut (hA : Finite2 A) (hX : Finite2 X) (hW : Finite2 W) (hdeg : ∀ r, 0 < deg A r) :
    kerOut A X W = refOut A X W := by
  obtain ⟨a, rfl⟩ := exists_real hA
  obtain ⟨x, rfl⟩ := exists_real hX
  obtain ⟨w, rfl⟩ := exists_real hW
  obtain ⟨d, hd⟩ : ∃ d : Fin 8192 → ℝ, dinv (fun i k => (a i k : EReal)) = fun r => (d r : EReal) :=
    ⟨fun r => (Real.sqrt (∑ j, a r j))⁻¹, funext fun r => dinv_coe a r (hdeg r)⟩
  funext i o
  unfold kerOut refOut
  rw [hd, kerForm_coe]
  beta_reduce
  rw [refSum_coe, real_law]

end Cert.GcnSpec

end
-- ==== Proof.KI.DegreeValue.lean ====
/-
  What region 0 leaves in the row-sum array, on the extended reals: entry (r, 0) is the sum of row r
  of the matrix. Row tile r / 1024 accumulates it over its four column tiles — zero, then the lane sums
  of each 2048-column block added in turn — and writes the block back after the fourth.
-/
import proofs.«164056_j47261820125198_1_alg».proof.Proof.KI.Data
import proofs.«164056_j47261820125198_1_alg».proof.Proof.KI.Pay
import proofs.«164056_j47261820125198_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

namespace DegV

/-- The matrix as region 0 finds it. -/
abbrev matA (c : Dev nD) : FVec Ideal S8192x8192 .f32 := V c main_arg1

/-- Entry (r, m) of the matrix with both coordinates plain naturals; zero off the matrix. -/
def ext (c : Dev nD) (r m : ℕ) : EReal :=
  if h : r < 8192 ∧ m < 8192 then matA V c (ix2 ⟨r, h.1⟩ ⟨m, h.2⟩) else 0

/-- The two windows' block indices at point t: row tile t / 4; column tile t % 4 for the matrix, 0 for the row sums. -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

theorem iblk0_apply (c : Dev nD) (t : Fin cfg0.N) (p : Fin 1024) (j : Fin 2048) :
    (iblk0 V c 0 t : FVec Ideal S1024x2048 .f32) (ix2 p j)
      = ext V c (1024 * (t.val / 4) + p.val) (2048 * (t.val % 4) + j.val) := by
  have hN : cfg0.N = 32 := N_0
  have ht := t.isLt
  obtain ⟨e0, e1, -, -⟩ := idx_facts t
  have hr : 1024 * (t.val / 4) + p.val < 8192 := by have := p.isLt; omega
  have hm : 2048 * (t.val % 4) + j.val < 8192 := by have := j.isLt; omega
  unfold ext
  rw [dif_pos ⟨hr, hm⟩]
  unfold iblk0
  rw [View.read_apply]
  show V c main_arg1 _ = V c main_arg1 _
  congr 1
  funext a
  apply Fin.ext
  match a with
  | ⟨0, _⟩ => show win0_0.index t (0 : Fin 2) * 1024 + 1 * p.val = 1024 * (t.val / 4) + p.val; rw [e0]; omega
  | ⟨1, _⟩ => show win0_0.index t (1 : Fin 2) * 2048 + 1 * j.val = 2048 * (t.val % 4) + j.val; rw [e1]; omega

/-- A sum over the first k + 1 column tiles is the sum over the first k plus the lanes of tile k. -/
theorem step_sum (f : ℕ → EReal) (k : ℕ) :
    ∑ m ∈ Finset.range (2048 * (k + 1)), f m
      = ∑ m ∈ Finset.range (2048 * k), f m + ∑ j : Fin 2048, f (2048 * k + j.val) := by
  rw [show 2048 * (k + 1) = 2048 * k + 2048 from by ring, Finset.sum_range_add,
    Finset.sum_range (fun x => f (2048 * k + x))]

/-- At a first column tile the block holds the lane sums of that tile. -/
theorem degAt_first_apply (c : Dev nD) (t : Fin cfg0.N) (h0 : t.val % 4 = 0) (p : Fin 1024) :
    (degAt V c t.val t.isLt : FVec Ideal S1024x1 .f32) (ix2 p 0)
      = ∑ j : Fin 2048, ext V c (1024 * (t.val / 4) + p.val) (2048 * (t.val % 4) + j.val) := by
  refine (congrFun (degAt_first V c t h0) _).trans ((k0_pay2_apply _ _ p).trans ?_)
  rw [k0_pay1_apply, zero_add]
  exact Finset.sum_congr rfl fun j _ => iblk0_apply V c t p j

/-- At a later column tile it adds that tile's lane sums to what the point before left. -/
theorem degAt_next_apply (c : Dev nD) (t : Fin cfg0.N) (h0 : ¬t.val % 4 = 0) (p : Fin 1024) :
    (degAt V c t.val t.isLt : FVec Ideal S1024x1 .f32) (ix2 p 0)
      = (degAt V c (t.val - 1) (Nat.lt_of_le_of_lt (Nat.sub_le _ _) t.isLt) : FVec Ideal S1024x1 .f32) (ix2 p 0)
        + ∑ j : Fin 2048, ext V c (1024 * (t.val / 4) + p.val) (2048 * (t.val % 4) + j.val) := by
  refine (congrFun (degAt_next V c t h0) _).trans ((k0_pay2_apply _ _ p).trans ?_)
  exact congrArg _ (Finset.sum_congr rfl fun j _ => iblk0_apply V c t p j)

/-- After point n the entry of row p of the tile is the row's sum over the first n % 4 + 1 column tiles. -/
theorem degAt_apply (c : Dev nD) : ∀ (n : ℕ) (hn : n < cfg0.N) (p : Fin 1024),
    (degAt V c n hn : FVec Ideal S1024x1 .f32) (ix2 p 0)
      = ∑ m ∈ Finset.range (2048 * (n % 4 + 1)), ext V c (1024 * (n / 4) + p.val) m := by
  intro n
  induction n with
  | zero =>
    intro hn p
    refine (degAt_first_apply V c ⟨0, hn⟩ rfl p).trans ?_
    show ∑ j : Fin 2048, ext V c (1024 * (0 / 4) + p.val) (2048 * 0 + j.val)
      = ∑ m ∈ Finset.range (2048 * (0 + 1)), ext V c (1024 * (0 / 4) + p.val) m
    rw [step_sum, Nat.mul_zero, Finset.range_zero, Finset.sum_empty]
    exact (zero_add _).symm
  | succ n ih =>
    intro hn p
    by_cases h0 : (n + 1) % 4 = 0
    · refine (degAt_first_apply V c ⟨n + 1, hn⟩ h0 p).trans ?_
      show ∑ j : Fin 2048, ext V c (1024 * ((n + 1) / 4) + p.val) (2048 * ((n + 1) % 4) + j.val) = _
      rw [h0, step_sum, Nat.mul_zero, Finset.range_zero, Finset.sum_empty, zero_add]
    · refine (degAt_next_apply V c ⟨n + 1, hn⟩ h0 p).trans ?_
      show (degAt V c n _ : FVec Ideal S1024x1 .f32) (ix2 p 0)
        + ∑ j : Fin 2048, ext V c (1024 * ((n + 1) / 4) + p.val) (2048 * ((n + 1) % 4) + j.val) = _
      rw [ih (Nat.lt_of_succ_lt hn) p]
      have e1 : n / 4 = (n + 1) / 4 := by omega
      have e2 : n % 4 + 1 = (n + 1) % 4 := by omega
      rw [e1, e2]
      exact (step_sum (ext V c (1024 * ((n + 1) / 4) + p.val)) ((n + 1) % 4)).symm

/-- The row sums as contents of the whole [8192, 1] array. -/
abbrev rowSums (c : Dev nD) : FVec Ideal S8192x1 .f32 :=
  fun i => Cert.GcnSpec.deg (fun r j => matA V c (ix2 r j)) (i 0)

/-- The sum over all 8192 columns, the row given as a natural, is the row sum. -/
theorem ext_sum (c : Dev nD) (r : Fin 8192) (n : ℕ) (hn : n = r.val) :
    ∑ m ∈ Finset.range 8192, ext V c n m = Cert.GcnSpec.deg (fun r j => matA V c (ix2 r j)) r := by
  subst hn
  rw [Finset.sum_range]
  unfold Cert.GcnSpec.deg
  refine Finset.sum_congr rfl fun j _ => ?_
  unfold ext
  rw [dif_pos ⟨r.isLt, j.isLt⟩]

/-- A 1024-row block equals a block of the array read through an embedding once its entries (p, 0) agree. -/
theorem rowblock_ext (X : FVec Ideal S1024x1 .f32) (G : FVec Ideal S8192x1 .f32) (e : S1024x1.Idx → S8192x1.Idx)
    (h : ∀ p : Fin 1024, X (ix2 p 0) = G (e (ix2 p 0))) : X = fun y => G (e y) := by
  funext y
  obtain ⟨p, q, rfl⟩ : ∃ (p : Fin 1024) (q : Fin 1), y = ix2 p q := ⟨y 0, y 1, eq_ix2 y⟩
  obtain rfl : q = 0 := Subsingleton.elim _ _
  exact h p

/-- What a last column tile writes back is its block of the row sums. -/
theorem flushed_eq (c : Dev nD) (t : Fin cfg0.N) (hf : (cfg0.win 1).flush t = true) :
    (dat0 V c).flushed 1 t = ((cfg0.win 1).blk t).view.read (Elt Ideal) (rowSums V c) := by
  have hN : cfg0.N = 32 := N_0
  have ht := t.isLt
  have h3 : t.val % 4 = 3 := (flush0_1 t).mp hf
  obtain ⟨-, -, e2, e3⟩ := idx_facts t
  show (cfg0.win 1).cut (grid0.coords t) ((dat0 V c).after 1 t) = _
  rw [after0_1]
  show (degAt V c t.val t.isLt : FVec Ideal S1024x1 .f32)
    = fun y => rowSums V c (((cfg0.win 1).blk t).view.emb y)
  refine rowblock_ext _ _ _ fun p => ?_
  rw [degAt_apply, h3]
  refine ext_sum V c _ _ ?_
  show 1024 * (t.val / 4) + p.val = win0_1.index t (0 : Fin 2) * 1024 + 1 * p.val
  rw [e2]; omega

/-- Every row of the array lies in the block some last column tile writes back. -/
theorem cover (i : S8192x1.Idx) :
    ∃ t : Fin cfg0.N, (cfg0.win 1).flush t = true ∧ i ∈ ((cfg0.win 1).blk t).view.set := by
  have hN : cfg0.N = 32 := N_0
  have hi0 : (i 0).val < 8192 := (i 0).isLt
  have hi1 : (i 1).val < 1 := (i 1).isLt
  have htl : 4 * ((i 0).val / 1024) + 3 < cfg0.N := by rw [hN]; omega
  refine ⟨⟨4 * ((i 0).val / 1024) + 3, htl⟩, (flush0_1 _).mpr (by show (4 * ((i 0).val / 1024) + 3) % 4 = 3; omega), ?_⟩
  obtain ⟨-, -, e2, e3⟩ := idx_facts ⟨4 * ((i 0).val / 1024) + 3, htl⟩
  have e2' : win0_1.index ⟨4 * ((i 0).val / 1024) + 3, htl⟩ (0 : Fin 2) = (i 0).val / 1024 := by
    rw [e2]; show (4 * ((i 0).val / 1024) + 3) / 4 = _; omega
  show i ∈ ((View.whole main_v0).slice (win0_1.rect ⟨4 * ((i 0).val / 1024) + 3, htl⟩)).set
  rw [View.set_slice_whole, Rect.mem_set_unit]
  intro a
  match a with
  | ⟨0, _⟩ =>
    show win0_1.index ⟨4 * ((i 0).val / 1024) + 3, htl⟩ (0 : Fin 2) * 1024 ≤ (i 0).val
      ∧ (i 0).val < win0_1.index ⟨4 * ((i 0).val / 1024) + 3, htl⟩ (0 : Fin 2) * 1024 + 1024
    rw [e2']; omega
  | ⟨1, _⟩ =>
    show win0_1.index ⟨4 * ((i 0).val / 1024) + 3, htl⟩ (1 : Fin 2) * 1 ≤ (i 1).val
      ∧ (i 1).val < win0_1.index ⟨4 * ((i 0).val / 1024) + 3, htl⟩ (1 : Fin 2) * 1 + 1
    rw [e3]; omega

end DegV

open DegV

/-- The row-sum array after region 0, index by index. -/
theorem deg_value (c : Dev nD) (i : S8192x1.Idx) :
    ((dat0 (F := Ideal) V c).arrAt 1 cfg0.N : S8192x1.Idx → EReal) i
      = Cert.GcnSpec.deg (fun r j => (V c main_arg1 : S8192x8192.Idx → EReal) (ix2 r j)) (i 0) :=
  congrFun ((dat0 (F := Ideal) V c).arrAt_eq_of_cover 1 (rowSums V c) (flushed_eq V c) cover) i

end Cert.KernelIdeal.Gcn

end
-- ==== Proof.KI.GcnValue.lean ====
/-
  What region 1 leaves in the result array, on the extended reals, from the arrays it is entered with:
  the matrix A, the features X, the weights W and the factor column D (one array, read through two
  windows). Entry (i, o) is max (Σ_c ((Σ_k A i k * (X k c * D k)) * D i) * W c o) 0: row tile i / 1024
  accumulates the inner sum over its four column tiles of k and finishes the block after the fourth.
-/
import proofs.«164056_j47261820125198_1_alg».proof.Proof.KI.Data
import proofs.«164056_j47261820125198_1_alg».proof.Proof.KI.Pay
import proofs.«164056_j47261820125198_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

namespace GcnV

/-! ## Where each window's block sits -/

/-- The windows' block indices over the grid: point t is row tile t / 4, column tile t % 4. -/
theorem idx1 : ∀ t : Fin cfg1.N,
    win1_0.index t 0 = t.val / 4 ∧ win1_0.index t 1 = t.val % 4
    ∧ win1_1.index t 0 = t.val % 4 ∧ win1_1.index t 1 = 0
    ∧ win1_2.index t 0 = t.val % 4 ∧ win1_2.index t 1 = 0
    ∧ win1_3.index t 0 = t.val / 4 ∧ win1_3.index t 1 = 0
    ∧ win1_4.index t 0 = 0 ∧ win1_4.index t 1 = 0
    ∧ win1_5.index t 0 = t.val / 4 ∧ win1_5.index t 1 = 0 :=
  (by decide +kernel : ∀ t : Fin grid1.N, _)

/-- The four arrays region 1 reads, by their literal types. -/
abbrev matA (c : Dev nD) : FVec Ideal S8192x8192 .f32 := V c main_arg1
abbrev matX (c : Dev nD) : FVec Ideal S8192x128 .f32 := V c main_arg0
abbrev matW (c : Dev nD) : FVec Ideal S128x64 .f32 := V c main_arg2
abbrev colD (c : Dev nD) : FVec Ideal S8192x1 .f32 := V c main_v3

/-- The five input blocks at a point, by their literal types. -/
abbrev blkA (c : Dev nD) (t : Fin cfg1.N) : FVec Ideal S1024x2048 .f32 := iblk1 V c 0 t
abbrev blkX (c : Dev nD) (t : Fin cfg1.N) : FVec Ideal S2048x128 .f32 := iblk1 V c 1 t
abbrev blkDk (c : Dev nD) (t : Fin cfg1.N) : FVec Ideal S2048x1 .f32 := iblk1 V c 2 t
abbrev blkDi (c : Dev nD) (t : Fin cfg1.N) : FVec Ideal S1024x1 .f32 := iblk1 V c 3 t
abbrev blkW (c : Dev nD) (t : Fin cfg1.N) : FVec Ideal S128x64 .f32 := iblk1 V c 4 t

/-- The matrix block at point t holds rows 1024 (t / 4) + p and columns 2048 (t % 4) + k. -/
theorem blkA_apply (c : Dev nD) (t : Fin cfg1.N) (p : Fin 1024) (k : Fin 2048) (r j : Fin 8192)
    (hr : r.val = 1024 * (t.val / 4) + p.val) (hj : j.val = 2048 * (t.val % 4) + k.val) :
    blkA V c t (ix2 p k) = matA V c (ix2 r j) := by
  obtain ⟨e0, e1, -⟩ := idx1 t
  unfold blkA iblk1
  rw [View.read_apply]
  show V c main_arg1 _ = V c main_arg1 _
  congr 1
  funext a
  apply Fin.ext
  match a with
  | ⟨0, _⟩ => show win1_0.index t 0 * 1024 + 1 * p.val = r.val; rw [e0]; omega
  | ⟨1, _⟩ => show win1_0.index t 1 * 2048 + 1 * k.val = j.val; rw [e1]; omega

/-- The feature block at point t holds rows 2048 (t % 4) + k, every column. -/
theorem blkX_apply (c : Dev nD) (t : Fin cfg1.N) (k : Fin 2048) (q : Fin 128) (j : Fin 8192)
    (hj : j.val = 2048 * (t.val % 4) + k.val) :
    blkX V c t (ix2 k q) = matX V c (ix2 j q) := by
  obtain ⟨-, -, e0, e1, -⟩ := idx1 t
  unfold blkX iblk1
  rw [View.read_apply]
  show V c main_arg0 _ = V c main_arg0 _
  congr 1
  funext a
  apply Fin.ext
  match a with
  | ⟨0, _⟩ => show win1_1.index t 0 * 2048 + 1 * k.val = j.val; rw [e0]; omega
  | ⟨1, _⟩ => show win1_1.index t 1 * 128 + 1 * q.val = q.val; rw [e1]; omega

/-- The column-side factor block at point t holds rows 2048 (t % 4) + k. -/
theorem blkDk_apply (c : Dev nD) (t : Fin cfg1.N) (k : Fin 2048) (j : Fin 8192)
    (hj : j.val = 2048 * (t.val % 4) + k.val) :
    blkDk V c t (ix2 k 0) = colD V c (ix2 j 0) := by
  obtain ⟨-, -, -, -, e0, e1, -⟩ := idx1 t
  unfold blkDk iblk1
  rw [View.read_apply]
  show V c main_v3 _ = V c main_v3 _
  congr 1
  funext a
  apply Fin.ext
  match a with
  | ⟨0, _⟩ => show win1_2.index t 0 * 2048 + 1 * k.val = j.val; rw [e0]; omega
  | ⟨1, _⟩ => show win1_2.index t 1 * 1 + 1 * 0 = 0; rw [e1]

/-- The row-side factor block at point t holds rows 1024 (t / 4) + p. -/
theorem blkDi_apply (c : Dev nD) (t : Fin cfg1.N) (p : Fin 1024) (r : Fin 8192)
    (hr : r.val = 1024 * (t.val / 4) + p.val) :
    blkDi V c t (ix2 p 0) = colD V c (ix2 r 0) := by
  obtain ⟨-, -, -, -, -, -, e0, e1, -⟩ := idx1 t
  unfold blkDi iblk1
  rw [View.read_apply]
  show V c main_v3 _ = V c main_v3 _
  congr 1
  funext a
  apply Fin.ext
  match a with
  | ⟨0, _⟩ => show win1_3.index t 0 * 1024 + 1 * p.val = r.val; rw [e0]; omega
  | ⟨1, _⟩ => show win1_3.index t 1 * 1 + 1 * 0 = 0; rw [e1]

/-- The weight block is the whole weight array at every point. -/
theorem blkW_apply (c : Dev nD) (t : Fin cfg1.N) (cc : Fin 128) (o : Fin 64) :
    blkW V c t (ix2 cc o) = matW V c (ix2 cc o) := by
  obtain ⟨-, -, -, -, -, -, -, -, e0, e1, -⟩ := idx1 t
  unfold blkW iblk1
  rw [View.read_apply]
  show V c main_arg2 _ = V c main_arg2 _
  congr 1
  funext a
  apply Fin.ext
  match a with
  | ⟨0, _⟩ => show win1_4.index t 0 * 128 + 1 * cc.val = cc.val; rw [e0]; omega
  | ⟨1, _⟩ => show win1_4.index t 1 * 64 + 1 * o.val = o.val; rw [e1]; omega

/-! ## The accumulator after each point -/

/-- One term of row r's inner sum at feature column q, as a function of a natural column index
    (zero past the array's last column). -/
def term (c : Dev nD) (r : Fin 8192) (q : Fin 128) (n : ℕ) : EReal :=
  if h : n < 8192 then matA V c (ix2 r ⟨n, h⟩) * (matX V c (ix2 ⟨n, h⟩ q) * colD V c (ix2 ⟨n, h⟩ 0)) else 0

/-- What one point adds to entry (p, q): the terms of its 2048 columns. -/
theorem tile_sum (c : Dev nD) (t : Fin cfg1.N) (p : Fin 1024) (q : Fin 128) (r : Fin 8192)
    (hr : r.val = 1024 * (t.val / 4) + p.val) :
    ∑ k : Fin 2048, blkA V c t (ix2 p k) * (blkX V c t (ix2 k q) * blkDk V c t (ix2 k 0))
      = ∑ j ∈ Finset.range 2048, term V c r q (2048 * (t.val % 4) + j) := by
  rw [Finset.sum_range]
  refine Finset.sum_congr rfl fun k _ => ?_
  have hk := k.isLt
  have ht : t.val % 4 < 4 := Nat.mod_lt _ (by decide)
  have hb : 2048 * (t.val % 4) + k.val < 8192 := by omega
  unfold term
  rw [dif_pos hb, blkA_apply V c t p k r ⟨_, hb⟩ hr rfl, blkX_apply V c t k q ⟨_, hb⟩ rfl,
    blkDk_apply V c t k ⟨_, hb⟩ rfl]

/-- After point n = 4 i + k entry (p, q) of the accumulator is the sum of row 1024 i + p's terms over the
    first 2048 (k + 1) columns. -/
theorem accAt_apply (c : Dev nD) (n : ℕ) : ∀ (hn : n < cfg1.N) (p : Fin 1024) (q : Fin 128) (r : Fin 8192),
    r.val = 1024 * (n / 4) + p.val →
    (accAt V c n hn : FVec Ideal S1024x128 .f32) (ix2 p q)
      = ∑ m ∈ Finset.range (2048 * (n % 4 + 1)), term V c r q m := by
  induction n using Nat.strong_induction_on with
  | _ n ih =>
    intro hn p q r hr
    by_cases h0 : n % 4 = 0
    · refine (congrFun (accAt_first V c ⟨n, hn⟩ h0) (ix2 p q)).trans ?_
      refine (k1_pay2_apply (blkX V c ⟨n, hn⟩) (blkDk V c ⟨n, hn⟩) (blkA V c ⟨n, hn⟩) (k1_pay1 (F := Ideal)) p q).trans ?_
      rw [k1_pay1_apply, zero_add, tile_sum V c ⟨n, hn⟩ p q r hr]
      show ∑ j ∈ Finset.range 2048, term V c r q (2048 * (n % 4) + j) = _
      rw [h0, show 2048 * (0 + 1) = 2048 from rfl]
      refine Finset.sum_congr rfl fun j _ => ?_
      rw [show 2048 * 0 + j = j by omega]
    · have hn' : n - 1 < cfg1.N := Nat.lt_of_le_of_lt (Nat.sub_le _ _) hn
      refine (congrFun (accAt_next V c ⟨n, hn⟩ h0) (ix2 p q)).trans ?_
      refine (k1_pay2_apply (blkX V c ⟨n, hn⟩) (blkDk V c ⟨n, hn⟩) (blkA V c ⟨n, hn⟩) (accAt V c (n - 1) hn') p q).trans ?_
      rw [ih (n - 1) (by omega) hn' p q r (by omega), tile_sum V c ⟨n, hn⟩ p q r hr]
      show _ + ∑ j ∈ Finset.range 2048, term V c r q (2048 * (n % 4) + j) = _
      rw [show 2048 * ((n - 1) % 4 + 1) = 2048 * (n % 4) by omega,
        show 2048 * (n % 4 + 1) = 2048 * (n % 4) + 2048 by omega, Finset.sum_range_add]

/-! ## The finished block, the write-backs, the array -/

/-- What the result array ends holding. -/
abbrev gcnOut (c : Dev nD) : FVec Ideal S8192x64 .f32 := fun i =>
  Cert.GcnSpec.kerForm (fun r j => matA V c (ix2 r j)) (fun k cc => matX V c (ix2 k cc))
    (fun cc o => matW V c (ix2 cc o)) (fun r => colD V c (ix2 r 0)) (i 0) (i 1)

/-- At a last column tile the stored block's entry (p, o) is the kernel's form at row 1024 (t / 4) + p. -/
theorem outAt_apply (c : Dev nD) (t : Fin cfg1.N) (h3 : t.val % 4 = 3) (p : Fin 1024) (o : Fin 64) (r : Fin 8192)
    (o' : Fin 64) (hr : r.val = 1024 * (t.val / 4) + p.val) (ho : o'.val = o.val) :
    (outAt V c t.val t.isLt : FVec Ideal S1024x64 .f32) (ix2 p o)
      = Cert.GcnSpec.kerForm (fun r j => matA V c (ix2 r j)) (fun k cc => matX V c (ix2 k cc))
          (fun cc o => matW V c (ix2 cc o)) (fun r => colD V c (ix2 r 0)) r o' := by
  obtain rfl : o = o' := (Fin.ext ho).symm
  unfold outAt
  refine (k1_pay3_apply (accAt V c t.val t.isLt) (blkDi V c t) (blkW V c t) p o).trans ?_
  unfold Cert.GcnSpec.kerForm
  refine congrArg (fun x => max x 0) ?_
  refine Finset.sum_congr rfl fun cc _ => ?_
  rw [accAt_apply V c t.val t.isLt p cc r hr, blkDi_apply V c t p r hr, blkW_apply V c t cc o,
    show 2048 * (t.val % 4 + 1) = 8192 by omega, Finset.sum_range]
  refine congrArg (fun x => x * colD V c (ix2 r 0) * matW V c (ix2 cc o)) ?_
  refine Finset.sum_congr rfl fun k _ => ?_
  unfold term
  rw [dif_pos k.isLt]

/-- What a point with a last column tile writes back is its block of the result. -/
theorem flushed_eq (c : Dev nD) (t : Fin cfg1.N) (hf : (cfg1.win 5).flush t = true) :
    (dat1 V c).flushed 5 t = ((cfg1.win 5).blk t).view.read (Elt Ideal) (gcnOut V c) := by
  have h3 : t.val % 4 = 3 := (flush1_5 t).mp hf
  obtain ⟨-, -, -, -, -, -, -, -, -, -, e0, e1⟩ := idx1 t
  show (cfg1.win 5).cut (grid1.coords t) ((dat1 V c).after 5 t) = _
  rw [after1_5]
  funext j
  rw [View.read_apply]
  have hj0 : (j 0).val < 1024 := (j 0).isLt
  have hj1 : (j 1).val < 64 := (j 1).isLt
  have e : (cfg1.win 5).xinj (grid1.coords t) j = (ix2 ⟨(j 0).val, hj0⟩ ⟨(j 1).val, hj1⟩ : S1024x64.Idx) := by
    funext a
    match a with
    | ⟨0, _⟩ => rfl
    | ⟨1, _⟩ => rfl
  refine (congrArg (outAt V c t.val t.isLt : FVec Ideal S1024x64 .f32) e).trans ?_
  exact outAt_apply V c t h3 ⟨(j 0).val, hj0⟩ ⟨(j 1).val, hj1⟩ (((cfg1.win 5).blk t).view.emb j 0)
    (((cfg1.win 5).blk t).view.emb j 1)
    (by show win1_5.index t 0 * 1024 + 1 * (j 0).val = 1024 * (t.val / 4) + (j 0).val; rw [e0]; omega)
    (by show win1_5.index t 1 * 64 + 1 * (j 1).val = (j 1).val; rw [e1]; omega)

/-- An index of the result array is in point t's block iff each coordinate is in the block's range. -/
theorem mem_blk5 (t : Fin cfg1.N) (i : S8192x64.Idx) :
    i ∈ ((cfg1.win 5).blk t).view.set
      ↔ ∀ a : Fin 2, win1_5.index t a * S1024x64.size a ≤ (i a).val
          ∧ (i a).val < win1_5.index t a * S1024x64.size a + S1024x64.size a := by
  show i ∈ ((View.whole main_v4).slice (win1_5.rect t)).set ↔ _
  rw [View.set_slice_whole, Rect.mem_set_unit]
  exact Iff.rfl

/-- Row r of the result lies in the block written back at the last column tile of row tile r / 1024. -/
theorem cover5 (i : S8192x64.Idx) :
    ∃ t : Fin cfg1.N, (cfg1.win 5).flush t = true ∧ i ∈ ((cfg1.win 5).blk t).view.set := by
  have hi0 : (i 0).val < 8192 := (i 0).isLt
  have hi1 : (i 1).val < 64 := (i 1).isLt
  have hN : cfg1.N = 32 := N_1
  obtain ⟨t, ht⟩ : ∃ t : Fin cfg1.N, t.val = 4 * ((i 0).val / 1024) + 3 := ⟨⟨_, by rw [hN]; omega⟩, rfl⟩
  obtain ⟨-, -, -, -, -, -, -, -, -, -, e0, e1⟩ := idx1 t
  refine ⟨t, (flush1_5 t).mpr (by omega), ?_⟩
  rw [mem_blk5]
  intro a
  match a with
  | ⟨0, _⟩ =>
    show win1_5.index t 0 * 1024 ≤ (i 0).val ∧ (i 0).val < win1_5.index t 0 * 1024 + 1024
    rw [e0]; omega
  | ⟨1, _⟩ =>
    show win1_5.index t 1 * 64 ≤ (i 1).val ∧ (i 1).val < win1_5.index t 1 * 64 + 64
    rw [e1]; omega

/-- The eight written-back blocks tile the result array, so it ends holding the kernel's form everywhere. -/
theorem final5 (c : Dev nD) : (dat1 (F := Ideal) V c).arrAt 5 cfg1.N = gcnOut V c :=
  (dat1 (F := Ideal) V c).arrAt_eq_of_cover 5 (gcnOut V c) (flushed_eq V c) cover5

end GcnV

open GcnV

/-- The result array after region 1, index by index. -/
theorem gcn_value (c : Dev nD) (i : S8192x64.Idx) :
    ((dat1 (F := Ideal) V c).arrAt 5 cfg1.N : S8192x64.Idx → EReal) i
      = Cert.GcnSpec.kerForm (fun r j => (V c main_arg1 : S8192x8192.Idx → EReal) (ix2 r j))
          (fun k cc => (V c main_arg0 : S8192x128.Idx → EReal) (ix2 k cc))
          (fun cc o => (V c main_arg2 : S128x64.Idx → EReal) (ix2 cc o))
          (fun r => (V c main_v3 : S8192x1.Idx → EReal) (ix2 r 0)) (i 0) (i 1) :=
  congrFun (final5 V c) i

end Cert.KernelIdeal.Gcn

end
-- ==== Proof.KI.Glue.lean ====
/-
  From the launch memory to the result array, on the extended reals. No item before region 1 writes an
  argument array; the host stretch makes of the row sums the factor column d r = 1 / sqrt (deg r); so what
  region 1 leaves in the result array is the kernel's arrangement `kerOut` of the three argument arrays.
-/
import proofs.«164056_j47261820125198_1_alg».proof.Proof.KI.Bounds
import proofs.«164056_j47261820125198_1_alg».proof.Proof.KI.DegreeValue
import proofs.«164056_j47261820125198_1_alg».proof.Proof.KI.GcnValue
import proofs.«164056_j47261820125198_1_alg».proof.Proof.Spec
import proofs.«164056_j47261820125198_1_alg».proof.Proof.Gen.KernelIdeal.Regions
import Idealize.ShloMosaic.Lib.StableHlo.Run
import Idealize.ShloMosaic.Lib.ValueIdx

set_option maxRecDepth 16384

noncomputable section

namespace Cert.KernelIdeal.Gcn

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

open Idealize.ShloMosaic.StableHlo

variable (m : (ℓ : Loc nD τ sig) → Buf (Elt Ideal) ℓ)

/-- The three argument arrays as matrices of extended reals. -/
abbrev matA (c : Dev nD) : Fin 8192 → Fin 8192 → EReal := fun r j => (m ((c : Thread nD τ).loc main_arg1) : S8192x8192.Idx → EReal) (ix2 r j)
abbrev matX (c : Dev nD) : Fin 8192 → Fin 128 → EReal := fun k cc => (m ((c : Thread nD τ).loc main_arg0) : S8192x128.Idx → EReal) (ix2 k cc)
abbrev matW (c : Dev nD) : Fin 128 → Fin 64 → EReal := fun cc o => (m ((c : Thread nD τ).loc main_arg2) : S128x64.Idx → EReal) (ix2 cc o)

/-- A buffer that neither region 0 nor the host stretch writes is, at region 1's entry, as launched. -/
theorem V2_kept (c : Dev nD) (r : Ref sig .tc) (h : r ∉ hostOps1_W) (h0 : r ∉ ([main_v0] : List (Ref sig .tc))) :
    V2 m c r = m ((c : Thread nD τ).loc r) := by
  show StableHlo.after hostOps1 (W1 m c) (Proc.devRef .tc r) = _
  rw [StableHlo.after_of_writes_sub hostOps1 _ hostOps1_writes h]
  simp only [W1, Function.update_of_ne (StableHlo.devRef_ne_of_ne (List.ne_of_not_mem_cons h0) : (Proc.devRef .tc r : DevRef τ sig) ≠ Proc.devRef .tc main_v0)]

theorem V2_main_arg0 (c : Dev nD) : V2 m c main_arg0 = m ((c : Thread nD τ).loc main_arg0) := V2_kept m c main_arg0 (by decide) (by decide)
theorem V2_main_arg1 (c : Dev nD) : V2 m c main_arg1 = m ((c : Thread nD τ).loc main_arg1) := V2_kept m c main_arg1 (by decide) (by decide)
theorem V2_main_arg2 (c : Dev nD) : V2 m c main_arg2 = m ((c : Thread nD τ).loc main_arg2) := V2_kept m c main_arg2 (by decide) (by decide)

/-- The factor column at region 1's entry: one over the square root of the row sums region 0 left. -/
theorem V2_main_v3 (c : Dev nD) :
    V2 m c main_v3 = Host.divf (F := Ideal) (broadcastInDim S8192x1 ![] bcast_S_S8192x1 (constant (F := Ideal) S_ .f32 0x3F800000#32))
      (Host.sqrt (F := Ideal) (deg m c)) := by
  show StableHlo.after hostOps1 (W1 m c) (Proc.devRef .tc main_v3) = _
  after_results
  simp only [W1, Function.update_self]

/-- Entry (r, 0) of the factor column is `dinv` of the matrix at row r. -/
theorem dcol_value (c : Dev nD) (r : Fin 8192) :
    (V2 m c main_v3 : S8192x1.Idx → EReal) (ix2 r 0) = Cert.GcnSpec.dinv (matA m c) r := by
  have hd : (deg m c : S8192x1.Idx → EReal) (ix2 r 0) = Cert.GcnSpec.deg (matA m c) r := deg_value (V0 m) c (ix2 r 0)
  rw [V2_main_v3]
  simp only [Host.divf, Host.sqrt, broadcastInDim, constant, Ideal.hostDivf_def, Ideal.hostUnary_sqrt_def, Ideal.ofBits_def,
    Cert.GcnSpec.ofBits_one, Cert.GcnSpec.dinv]
  rw [hd]

/-- The result array after the run is the kernel's arrangement of the launch arrays, index by index. -/
theorem res_value (c : Dev nD) (i : S8192x64.Idx) :
    (res m c : S8192x64.Idx → EReal) i = Cert.GcnSpec.kerOut (matA m c) (matX m c) (matW m c) (i 0) (i 1) := by
  have hA : (fun r j => (V2 m c main_arg1 : S8192x8192.Idx → EReal) (ix2 r j)) = matA m c :=
    funext fun r => funext fun j => congrFun (V2_main_arg1 m c) (ix2 r j)
  have hX : (fun k cc => (V2 m c main_arg0 : S8192x128.Idx → EReal) (ix2 k cc)) = matX m c :=
    funext fun k => funext fun cc => congrFun (V2_main_arg0 m c) (ix2 k cc)
  have hW : (fun cc o => (V2 m c main_arg2 : S128x64.Idx → EReal) (ix2 cc o)) = matW m c :=
    funext fun cc => funext fun o => congrFun (V2_main_arg2 m c) (ix2 cc o)
  have hD : (fun r => (V2 m c main_v3 : S8192x1.Idx → EReal) (ix2 r 0)) = Cert.GcnSpec.dinv (matA m c) :=
    funext (dcol_value m c)
  refine (gcn_value (V2 m) c i).trans ?_
  rw [hA, hX, hW, hD]
  rfl

end Cert.KernelIdeal.Gcn

end
-- ==== Proof.RefSide.lean ====
/-
  The reference program at the exact instance: its run's result, read one operation at a time, is
  `refOut`: deg r = Σ_j A r j, d r = 1 / sqrt (deg r), then
  max (Σ_c (Σ_k ((d i * A i k) * d k) * X k c) * W c o) 0.
-/
import proofs.«164056_j47261820125198_1_alg».proof.Defs
import proofs.«164056_j47261820125198_1_alg».proof.Proof.Gen.ReferenceIdeal.Run
import proofs.«164056_j47261820125198_1_alg».proof.Proof.Gen.ReferenceIdeal.Read
import proofs.«164056_j47261820125198_1_alg».proof.Proof.Spec
import Idealize.ShloMosaic.Lib.ValueIdx
import Idealize.ShloMosaic.PureOps.Ideal.Laws

noncomputable section

namespace Cert.ReferenceIdeal.RefSide

open Cert.ReferenceIdeal Cert.ReferenceIdeal.Gen Idealize.ShloMosaic Idealize.ShloMosaic.ValueIdx

/-! ## Where each stage reads its operand: the composed index maps are coordinate constructors -/

/-- The row sum at row r reads the matrix along row r. -/
theorem idx_v0 (r k : Fin 8192) : Read.idx_main_v0 (ix1 r) k = ix2 r k :=
  funext fun a => Fin.ext (by match a with | ⟨0, _⟩ => rfl | ⟨1, _⟩ => rfl)

/-- Stretching the factor column along the rows: entry (i, k) reads the column at i. -/
theorem idx_rows (i k : Fin 8192) : Read.idx_main_v4 (Read.idx_main_v5 (ix2 i k)) = ix1 i :=
  funext fun a => Fin.ext (by match a with | ⟨0, _⟩ => rfl)

/-- Stretching the factor column along the columns: entry (i, k) reads the column at k. -/
theorem idx_cols (i k : Fin 8192) : Read.idx_main_v7 (Read.idx_main_v8 (ix2 i k)) = ix1 k :=
  funext fun a => Fin.ext (by match a with | ⟨0, _⟩ => rfl)

/-- The first product's left factor at (i, c), k-th term: the normalised matrix at (i, k). -/
theorem lidx_v10 (i : Fin 8192) (c : Fin 128) (k : Fin 8192) : Read.lidx_main_v10 (ix2 i c) k = ix2 i k :=
  funext fun a => Fin.ext (by match a with | ⟨0, _⟩ => rfl | ⟨1, _⟩ => rfl)

/-- The first product's right factor at (i, c), k-th term: X at (k, c). -/
theorem ridx_v10 (i : Fin 8192) (c : Fin 128) (k : Fin 8192) : Read.ridx_main_v10 (ix2 i c) k = ix2 k c :=
  funext fun a => Fin.ext (by match a with | ⟨0, _⟩ => rfl | ⟨1, _⟩ => rfl)

/-- The second product's left factor at index i, c-th term: the first product at (i 0, c). -/
theorem lidx_v11 (i : S8192x64.Idx) (c : Fin 128) : Read.lidx_main_v11 i c = ix2 (n0 := 8192) (i 0) c :=
  funext fun a => Fin.ext (by match a with | ⟨0, _⟩ => rfl | ⟨1, _⟩ => rfl)

/-- The second product's right factor at index i, c-th term: W at (c, i 1). -/
theorem ridx_v11 (i : S8192x64.Idx) (c : Fin 128) : Read.ridx_main_v11 i c = ix2 (n1 := 64) c (i 1) :=
  funext fun a => Fin.ext (by match a with | ⟨0, _⟩ => rfl | ⟨1, _⟩ => rfl)

/-! ## The stages, innermost first -/

/-- The row sums: zero plus the sum along the row. -/
theorem deg_at (x1 : (⟨S8192x8192, .f32⟩ : BufTy).Contents (Elt Ideal)) (r : Fin 8192) :
    Read.val_main_v0 (F := Ideal) x1 (ix1 r) = Cert.GcnSpec.deg (fun r j => x1 (ix2 r j)) r := by
  rw [Read.val_main_v0_apply, Read.val_main_cst_apply]
  simp only [idx_v0, Ideal.ofBits_def, Cert.GcnSpec.ofBits_zero, zero_add, Cert.GcnSpec.deg]

/-- The factor column: one over the square root of the row sum. -/
theorem d_at (x1 : (⟨S8192x8192, .f32⟩ : BufTy).Contents (Elt Ideal)) (r : Fin 8192) :
    Read.val_main_v3 (F := Ideal) x1 (ix1 r) = Cert.GcnSpec.dinv (fun r j => x1 (ix2 r j)) r := by
  rw [Read.val_main_v3_apply, Read.val_main_v2_apply, Read.val_main_cst_0_apply, Read.val_main_v1_apply, deg_at]
  simp only [Ideal.hostDivf_def, Ideal.hostUnary_sqrt_def, Ideal.ofBits_def, Cert.GcnSpec.ofBits_one, Cert.GcnSpec.dinv]

/-- The normalised matrix entry: (d i * A i k) * d k. -/
theorem norm_at (x1 : (⟨S8192x8192, .f32⟩ : BufTy).Contents (Elt Ideal)) (i k : Fin 8192) :
    Read.val_main_v9 (F := Ideal) x1 (ix2 i k)
      = (Cert.GcnSpec.dinv (fun r j => x1 (ix2 r j)) i * x1 (ix2 i k)) * Cert.GcnSpec.dinv (fun r j => x1 (ix2 r j)) k := by
  rw [Read.val_main_v9_apply, Read.val_main_v6_apply, Read.val_main_v5_apply, Read.val_main_v4_apply, idx_rows,
    Read.val_main_v8_apply, Read.val_main_v7_apply, idx_cols, d_at, d_at]
  simp only [Ideal.mulf_def]

/-- The first product: the normalised matrix times X. -/
theorem inner_at (x0 : (⟨S8192x128, .f32⟩ : BufTy).Contents (Elt Ideal)) (x1 : (⟨S8192x8192, .f32⟩ : BufTy).Contents (Elt Ideal))
    (i : Fin 8192) (c : Fin 128) :
    Read.val_main_v10 (F := Ideal) x0 x1 (ix2 i c)
      = ∑ k : Fin 8192, ((Cert.GcnSpec.dinv (fun r j => x1 (ix2 r j)) i * x1 (ix2 i k))
          * Cert.GcnSpec.dinv (fun r j => x1 (ix2 r j)) k) * x0 (ix2 k c) := by
  rw [Read.val_main_v10_apply]
  refine Finset.sum_congr rfl fun k _ => ?_
  rw [lidx_v10, ridx_v10, norm_at]

/-- The reference's last stage, index by index, is the reference's arrangement of the formula. -/
theorem ref_value (x0 : (⟨S8192x128, .f32⟩ : BufTy).Contents (Elt Ideal)) (x1 : (⟨S8192x8192, .f32⟩ : BufTy).Contents (Elt Ideal))
    (x2 : (⟨S128x64, .f32⟩ : BufTy).Contents (Elt Ideal)) (i : S8192x64.Idx) :
    Cert.ReferenceIdeal.Read.val_main_v12 (F := Ideal) x0 x1 x2 i
      = Cert.GcnSpec.refOut (fun r j => x1 (ix2 r j)) (fun k c => x0 (ix2 k c)) (fun c o => x2 (ix2 c o)) (i 0) (i 1) := by
  rw [Read.val_main_v12_apply, Read.val_main_call0_v0_apply, Read.val_main_call0_cst_apply, Read.val_main_v11_apply]
  simp only [Ideal.maximumf_def, Ideal.ofBits_def, Cert.GcnSpec.ofBits_zero, Cert.GcnSpec.refOut]
  refine congrArg (max · 0) (Finset.sum_congr rfl fun c _ => ?_)
  rw [lidx_v11, ridx_v11]
  exact congrArg (· * x2 (ix2 (n1 := 64) c (i 1))) (inner_at x0 x1 (i 0) c)

end Cert.ReferenceIdeal.RefSide

end
-- ==== Proof.PreDecode.lean ====
/-
  What the precondition says of the three argument arrays at the exact instance: every entry is a real
  number, and every row sum of the matrix is positive.
-/
import proofs.«164056_j47261820125198_1_alg».proof.Pre_finite_inputs
import proofs.«164056_j47261820125198_1_alg».proof.Proof.Gen.Pre_finite_inputs
import proofs.«164056_j47261820125198_1_alg».proof.Proof.Spec
import Idealize.ShloMosaic.Lib.ValueIdx
import Idealize.ShloMosaic.Lib.ReduceAll
import Idealize.ShloMosaic.PureOps.Ideal.Laws

noncomputable section

namespace Cert.PreDecode

open Idealize.ShloMosaic Idealize.ShloMosaic.ValueIdx Cert.Pre_finite_inputs

/-- The rank-zero shape has one index. -/
instance : Subsingleton S_.Idx := ⟨fun a b => funext fun d => d.elim0⟩

/-- A boolean's one-bit word is 1 exactly when the boolean is true. -/
theorem ofBool_one {b : Bool} : BitVec.ofBool b = 1#1 ↔ b = true := by cases b <;> decide

/-- The word with exponent field all ones and fraction zero denotes +∞. -/
theorem ofBits_inf : Ideal.ofBits .f32 0x7F800000#32 = (⊤ : EReal) := by
  simp [Ideal.ofBits, Ideal.ieee]

/-- |x| < +∞ on the extended reals says x is neither infinity. -/
theorem finite_of_abs_lt_inf (x : EReal)
    (h : Ideal.cmp .olt (max x (-x)) (Ideal.ofBits .f32 0x7F800000#32) = 1#1) : x ≠ ⊤ ∧ x ≠ ⊥ := by
  rw [ofBits_inf] at h
  have h' : max x (-x) < ⊤ := of_decide_eq_true (ofBool_one.1 h)
  rw [max_lt_iff] at h'
  refine ⟨fun e => ?_, fun e => ?_⟩
  · rw [e] at h'; exact lt_irrefl _ h'.1
  · rw [e, EReal.neg_bot] at h'; exact lt_irrefl _ h'.2

/-- One "all entries finite" conjunct of the precondition, read at an index: the and-reduction over every axis of the
    elementwise test |x| < +∞ being 1 makes every entry a real number. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : x i ≠ ⊤ ∧ x i ≠ ⊥ :=
  finite_of_abs_lt_inf (x i) (Host.reduce_andi_all _ _ hr hu ix0 e i)

/-- The index a row-sum reads: row r, column k. -/
theorem lift_row (h : S8192x8192.Reduces [1] S8192) (r : Fin 8192) (k : Fin 8192) :
    h.lift (ix1 r) k = ix2 r k :=
  funext fun a => Fin.ext (by match a with | ⟨0, _⟩ => rfl | ⟨1, _⟩ => rfl)

/-- The float row sum started from the zero word is, at the exact instance, the plain sum of the row. -/
theorem rowsum_eq (a1 : FVec Ideal S8192x8192 .f32) (hr : S8192x8192.ReducesTo [1] S8192) (hu : 0 < S_.numel)
    (r : Fin 8192) :
    Host.reduceAdd a1 (constant (F := Ideal) S_ .f32 0x00000000#32) hr hu (ix1 r)
      = Cert.GcnSpec.deg (fun r j => a1 (ix2 r j)) r := by
  simp only [Host.reduceAdd, Ideal.hostReduceAdd_def]
  rw [Ideal.hostReduceAdd_single hr (by decide)]
  rw [constant_apply, Cert.GcnSpec.ofBits_zero, zero_add]
  unfold Cert.GcnSpec.deg
  exact Finset.sum_congr rfl fun k _ => congrArg a1 (lift_row _ r k)

/-- The fourth conjunct, read at a row: the and-reduction of "row sum > 0" being 1 makes every row sum positive. -/
theorem deg_pos_of_all (a1 : FVec Ideal S8192x8192 .f32) (hr : S8192x8192.ReducesTo [1] S8192) (hu : 0 < S_.numel)
    (hb : S_.BroadcastsInDim S8192 (![] : Fin 0 → Fin S8192.rank)) (hr0 : S8192.ReducesTo [0] S_)
    (e : Host.reduce IntOp.andi
        (cmpf .ogt (Host.reduceAdd a1 (constant (F := Ideal) S_ .f32 0x00000000#32) hr hu)
          (broadcastInDim S8192 ![] hb (constant (F := Ideal) S_ .f32 0x00000000#32)))
        (constantI S_ 1 1#1) hr0 hu ix0 = 1#1) (r : Fin 8192) :
    0 < Cert.GcnSpec.deg (fun r j => a1 (ix2 r j)) r := by
  have h1 : Ideal.cmp .ogt (Host.reduceAdd a1 (constant (F := Ideal) S_ .f32 0x00000000#32) hr hu (ix1 r))
      (Ideal.ofBits .f32 0x00000000#32) = 1#1 := Host.reduce_andi_all _ _ hr0 hu ix0 e (ix1 r)
  rw [rowsum_eq, Cert.GcnSpec.ofBits_zero] at h1
  exact of_decide_eq_true (ofBool_one.1 h1)

/-- The printed precondition, all ones, decoded. -/
theorem pre_decode (a0 : FVec Ideal S8192x128 .f32) (a1 : FVec Ideal S8192x8192 .f32) (a2 : FVec Ideal S128x64 .f32)
    (h : Cert.Pre_finite_inputs.fn (F := Ideal) a0 a1 a2 = fun _ => 1#1) :
    Cert.GcnSpec.Finite2 (fun k c => a0 (ix2 k c)) ∧ Cert.GcnSpec.Finite2 (fun r j => a1 (ix2 r j))
      ∧ Cert.GcnSpec.Finite2 (fun c o => a2 (ix2 c o)) ∧ ∀ r, 0 < Cert.GcnSpec.deg (fun r j => a1 (ix2 r j)) r := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i j => finite_of_all a0 _ _ _ h1 (ix2 i j), fun i j => finite_of_all a1 _ _ _ h2 (ix2 i j),
    fun i j => finite_of_all a2 _ _ _ h3 (ix2 i j), fun r => deg_pos_of_all a1 _ _ _ _ h4 r⟩

end Cert.PreDecode

end
-- ==== Proof.lean ====
/-
  The kernel computes relu ((D^-1/2 A D^-1/2) X W) in two grid regions with a host stretch between them:
  row sums deg of A accumulated over column tiles; d = 1 / sqrt deg on the host; then, per row tile,
  Σ_k A_ik (X_kc d_k) accumulated over column tiles, scaled by d_i, multiplied by W and clamped at zero.
  The reference forms (d_i A_ik) d_k first and multiplies by X and then W.

  On the extended reals the two arrangements differ by moving the factor d_i across the sum over k,
  which needs d_i finite: the statement therefore carries, beside the finiteness of the inputs, that every
  row sum of A is positive (outside it the reference's own 1 / sqrt deg is infinite or undefined). Under it
  every entry, row sum and factor is a real number and both programs end at one function of the arguments.

  The frames: each region's body is run at every grid point against the contents the point before left
  (the row-sum block, and the product's scratch accumulator, are carried across the four column tiles of a
  row tile); the factor column reaches the second region through two windows on one array, held at its two
  half shares; @main is region, host stretch, region, each entered from what the item before it left. The
  word-level program and its exact-instance reading are one text, so one proof, generic in the float
  instance, serves both. The reference has no kernel: its frame is its run with the result dropped.
-/
import proofs.«164056_j47261820125198_1_alg».proof.Defs
import proofs.«164056_j47261820125198_1_alg».proof.Proof.Gen.Kernel
import proofs.«164056_j47261820125198_1_alg».proof.Proof.Gen.KernelIdeal
import proofs.«164056_j47261820125198_1_alg».proof.Proof.Gen.ReferenceIdeal
import proofs.«164056_j47261820125198_1_alg».proof.Proof.Gen.Pre_finite_inputs
import proofs.«164056_j47261820125198_1_alg».proof.Proof.Gen.ReferenceIdeal.Run
import proofs.«164056_j47261820125198_1_alg».proof.Proof.Gen.ReferenceIdeal.Read
import proofs.«164056_j47261820125198_1_alg».proof.Proof.K.Launch
import proofs.«164056_j47261820125198_1_alg».proof.Proof.KI.Launch
import proofs.«164056_j47261820125198_1_alg».proof.Proof.KI.Glue
import proofs.«164056_j47261820125198_1_alg».proof.Proof.RefSide
import proofs.«164056_j47261820125198_1_alg».proof.Proof.PreDecode
import proofs.«164056_j47261820125198_1_alg».proof.Proof.Spec
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched: the run of
    @main's three items, read at the argument arrays, which no item writes. -/
theorem frame_p : Cert.frame_Kernel := fun m ρ _ =>
  (θ_run Cert.Kernel.defs _ _).mono (fun r h c =>
    ⟨(h c _ (Cert.Kernel.Gcn.mem_uc Cert.Kernel.main_arg0 (by decide))).trans (Cert.Kernel.Gcn.W3_main_arg0 m c),
     (h c _ (Cert.Kernel.Gcn.mem_uc Cert.Kernel.main_arg1 (by decide))).trans (Cert.Kernel.Gcn.W3_main_arg1 m c),
     (h c _ (Cert.Kernel.Gcn.mem_uc Cert.Kernel.main_arg2 (by decide))).trans (Cert.Kernel.Gcn.W3_main_arg2 m c)⟩)
    (Cert.Kernel.Gcn.run_all (F := Bits) m ρ)

/-- The same of its reading at the exact instance. -/
theorem frame_pi : Cert.frame_KernelIdeal := fun m ρ _ =>
  (θ_run Cert.KernelIdeal.defs _ _).mono (fun r h c =>
    ⟨(h c _ (Cert.KernelIdeal.Gcn.mem_uc Cert.KernelIdeal.main_arg0 (by decide))).trans (Cert.KernelIdeal.Gcn.W3_main_arg0 m c),
     (h c _ (Cert.KernelIdeal.Gcn.mem_uc Cert.KernelIdeal.main_arg1 (by decide))).trans (Cert.KernelIdeal.Gcn.W3_main_arg1 m c),
     (h c _ (Cert.KernelIdeal.Gcn.mem_uc Cert.KernelIdeal.main_arg2 (by decide))).trans (Cert.KernelIdeal.Gcn.W3_main_arg2 m c)⟩)
    (Cert.KernelIdeal.Gcn.run_all (F := Ideal) m ρ)

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at one function of the arguments: the kernel's result array is its arrangement of the
    formula, the reference's last stage its own, and under the precondition — every entry real, every row sum
    positive — the two arrangements agree. -/
theorem algebraic : Cert.algebraic_KernelIdeal_ReferenceIdeal := by
  intro m ρ m' ρ' hpre hagree
  refine ⟨fun c => Cert.KernelIdeal.Gcn.res (F := Ideal) m c, ?_, ?_⟩
  · exact (θ_run Cert.KernelIdeal.defs _ _).mono (fun r h c =>
      ⟨(h c _ (Cert.KernelIdeal.Gcn.mem_uc Cert.KernelIdeal.main_v4 (by decide))).trans (Cert.KernelIdeal.Gcn.W3_main_v4 m c),
       (h c _ (Cert.KernelIdeal.Gcn.mem_uc Cert.KernelIdeal.main_arg0 (by decide))).trans (Cert.KernelIdeal.Gcn.W3_main_arg0 m c),
       (h c _ (Cert.KernelIdeal.Gcn.mem_uc Cert.KernelIdeal.main_arg1 (by decide))).trans (Cert.KernelIdeal.Gcn.W3_main_arg1 m c),
       (h c _ (Cert.KernelIdeal.Gcn.mem_uc Cert.KernelIdeal.main_arg2 (by decide))).trans (Cert.KernelIdeal.Gcn.W3_main_arg2 m c)⟩)
      (Cert.KernelIdeal.Gcn.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨hX, hA, hW, hdeg⟩ := Cert.PreDecode.pre_decode _ _ _ (hpre c)
    rw [(hagree c).1, (hagree c).2.1, (hagree c).2.2, Cert.ReferenceIdeal.Read.val_main_v12_eq]
    funext i
    rw [Cert.ReferenceIdeal.RefSide.ref_value]
    refine Eq.trans ?_ (Cert.KernelIdeal.Gcn.res_value m c i).symm
    exact (congrFun (congrFun (Cert.GcnSpec.kerOut_eq_refOut _ _ _ hA hX hW hdeg) (i 0)) (i 1)).symm

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
